-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048 : Shape := ⟨2, ![2, 2048]⟩
abbrev S32000x1024 : Shape := ⟨2, ![32000, 1024]⟩
abbrev S1024 : Shape := ⟨1, ![1024]⟩
abbrev S8192x1024 : Shape := ⟨2, ![8192, 1024]⟩
abbrev S8192 : Shape := ⟨1, ![8192]⟩
abbrev S32000x4096 : Shape := ⟨2, ![32000, 4096]⟩
abbrev S32000 : Shape := ⟨1, ![32000]⟩
abbrev S_ : Shape := ⟨0, ![]⟩

class Facts : Prop where
  bcast_S_S32000x1024 : S_.BroadcastsInDim S32000x1024 (![] : Fin 0 → Fin S32000x1024.rank)
  reducesTo_S32000x1024_S_d0_1 : S32000x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S8192x1024 : S_.BroadcastsInDim S8192x1024 (![] : Fin 0 → Fin S8192x1024.rank)
  reducesTo_S8192x1024_S_d0_1 : S8192x1024.ReducesTo [0, 1] S_
  bcast_S_S8192 : S_.BroadcastsInDim S8192 (![] : Fin 0 → Fin S8192.rank)
  reducesTo_S8192_S_d0 : S8192.ReducesTo [0] S_
  bcast_S_S32000x4096 : S_.BroadcastsInDim S32000x4096 (![] : Fin 0 → Fin S32000x4096.rank)
  reducesTo_S32000x4096_S_d0_1 : S32000x4096.ReducesTo [0, 1] S_
  bcast_S_S32000 : S_.BroadcastsInDim S32000 (![] : Fin 0 → Fin S32000.rank)
  reducesTo_S32000_S_d0 : S32000.ReducesTo [0] S_
  bcast_S_S2x2048 : S_.BroadcastsInDim S2x2048 (![] : Fin 0 → Fin S2x2048.rank)
  reducesTo_S2x2048_S_d0_1 : S2x2048.ReducesTo [0, 1] S_

variable [Facts]

def fn_part2 {F : FTy → Type} [FloatOps F] (main_v28 : IVec S_ 1) (main_v33 : IVec S2x2048 1) : IVec S_ 1 :=
  let main_c_12 : IVec S_ 1 := constantI S_ 1 1#1
  let main_v34 : IVec S_ 1 := (fun x v => Host.reduce IntOp.andi x v reducesTo_S2x2048_S_d0_1 h_S_) main_v33 main_c_12
  let main_v35 : IVec S_ 1 := andi main_v28 main_v34
  main_v35

def fn_part1 {F : FTy → Type} [FloatOps F] (main_arg0 : IVec S2x2048 32) (main_arg5 : FVec F S32000x4096 .f32) (main_arg6 : FVec F S32000 .f32) (main_v13 : IVec S_ 1) (main_v16 : IVec S8192 1) : IVec S_ 1 :=
  let main_c_5 : IVec S_ 1 := constantI S_ 1 1#1
  let main_v17 : IVec S_ 1 := (fun x v => Host.reduce IntOp.andi x v reducesTo_S8192_S_d0 h_S_) main_v16 main_c_5
  let main_v18 : IVec S_ 1 := andi main_v13 main_v17
  let main_v19 : FVec F S32000x4096 .f32 := Host.absf main_arg5
  let main_cst_6 : FVec F S_ .f32 := constant S_ .f32 0x7F800000#32
  let main_v20 : FVec F S32000x4096 .f32 := broadcastInDim S32000x4096 ![] bcast_S_S32000x4096 main_cst_6
  let main_v21 : IVec S32000x4096 1 := cmpf .olt main_v19 main_v20
  let main_c_7 : IVec S_ 1 := constantI S_ 1 1#1
  let main_v22 : IVec S_ 1 := (fun x v => Host.reduce IntOp.andi x v reducesTo_S32000x4096_S_d0_1 h_S_) main_v21 main_c_7
  let main_v23 : IVec S_ 1 := andi main_v18 main_v22
  let main_v24 : FVec F S32000 .f32 := Host.absf main_arg6
  let main_cst_8 : FVec F S_ .f32 := constant S_ .f32 0x7F800000#32
  let main_v25 : FVec F S32000 .f32 := broadcastInDim S32000 ![] bcast_S_S32000 main_cst_8
  let main_v26 : IVec S32000 1 := cmpf .olt main_v24 main_v25
  let main_c_9 : IVec S_ 1 := constantI S_ 1 1#1
  let main_v27 : IVec S_ 1 := (fun x v => Host.reduce IntOp.andi x v reducesTo_S32000_S_d0 h_S_) main_v26 main_c_9
  let main_v28 : IVec S_ 1 := andi main_v23 main_v27
  let main_c_10 : IVec S_ 32 := constantI S_ 32 0#32
  let main_v29 : IVec S2x2048 32 := broadcastInDim S2x2048 ![] bcast_S_S2x2048 main_c_10
  let main_v30 : IVec S2x2048 1 := cmpi .sge main_arg0 main_v29
  let main_c_11 : IVec S_ 32 := constantI S_ 32 32000#32
  let main_v31 : IVec S2x2048 32 := broadcastInDim S2x2048 ![] bcast_S_S2x2048 main_c_11
  let main_v32 : IVec S2x2048 1 := cmpi .slt main_arg0 main_v31
  let main_v33 : IVec S2x2048 1 := andi main_v30 main_v32
  fn_part2 (F := F) main_v28 main_v33

def fn {F : FTy → Type} [FloatOps F] (main_arg0 : IVec S2x2048 32) (main_arg1 : FVec F S32000x1024 .f32) (main_arg2 : FVec F S1024 .f32) (main_arg3 : FVec F S8192x1024 .f32) (main_arg4 : FVec F S8192 .f32) (main_arg5 : FVec F S32000x4096 .f32) (main_arg6 : FVec F S32000 .f32) : IVec S_ 1 :=
  let main_v0 : FVec F S32000x1024 .f32 := Host.absf main_arg1
  let main_cst : FVec F S_ .f32 := constant S_ .f32 0x7F800000#32
  let main_v1 : FVec F S32000x1024 .f32 := broadcastInDim S32000x1024 ![] bcast_S_S32000x1024 main_cst
  let main_v2 : IVec S32000x1024 1 := cmpf .olt main_v0 main_v1
  let main_c : IVec S_ 1 := constantI S_ 1 1#1
  let main_v3 : IVec S_ 1 := (fun x v => Host.reduce IntOp.andi x v reducesTo_S32000x1024_S_d0_1 h_S_) main_v2 main_c
  let main_v4 : FVec F S1024 .f32 := Host.absf main_arg2
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S8192x1024 .f32 := Host.absf main_arg3
  let main_cst_2 : FVec F S_ .f32 := constant S_ .f32 0x7F800000#32
  let main_v10 : FVec F S8192x1024 .f32 := broadcastInDim S8192x1024 ![] bcast_S_S8192x1024 main_cst_2
  let main_v11 : IVec S8192x1024 1 := cmpf .olt main_v9 main_v10
  let main_c_3 : IVec S_ 1 := constantI S_ 1 1#1
  let main_v12 : IVec S_ 1 := (fun x v => Host.reduce IntOp.andi x v reducesTo_S8192x1024_S_d0_1 h_S_) main_v11 main_c_3
  let main_v13 : IVec S_ 1 := andi main_v8 main_v12
  let main_v14 : FVec F S8192 .f32 := Host.absf main_arg4
  let main_cst_4 : FVec F S_ .f32 := constant S_ .f32 0x7F800000#32
  let main_v15 : FVec F S8192 .f32 := broadcastInDim S8192 ![] bcast_S_S8192 main_cst_4
  let main_v16 : IVec S8192 1 := cmpf .olt main_v14 main_v15
  fn_part1 (F := F) main_arg0 main_arg5 main_arg6 main_v13 main_v16
-- ==== Kernel.lean ====
abbrev S2x2048 : Shape := ⟨2, ![2, 2048]⟩
abbrev S32000x1024 : Shape := ⟨2, ![32000, 1024]⟩
abbrev S1024 : Shape := ⟨1, ![1024]⟩
abbrev S8192x1024 : Shape := ⟨2, ![8192, 1024]⟩
abbrev S8192 : Shape := ⟨1, ![8192]⟩
abbrev S32000x4096 : Shape := ⟨2, ![32000, 4096]⟩
abbrev S32000 : Shape := ⟨1, ![32000]⟩
abbrev S4096 : Shape := ⟨1, ![4096]⟩
abbrev S_ : Shape := ⟨0, ![]⟩
abbrev S4096x1 : Shape := ⟨2, ![4096, 1]⟩
abbrev S1 : Shape := ⟨1, ![1]⟩
abbrev S1x1 : Shape := ⟨2, ![1, 1]⟩
abbrev S4096x1024 : Shape := ⟨2, ![4096, 1024]⟩
abbrev S4096x4096 : Shape := ⟨2, ![4096, 4096]⟩
abbrev S256x1024 : Shape := ⟨2, ![256, 1024]⟩
abbrev S256x4096 : Shape := ⟨2, ![256, 4096]⟩
abbrev S256 : Shape := ⟨1, ![256]⟩
abbrev S256x1 : Shape := ⟨2, ![256, 1]⟩
abbrev S1x1024 : Shape := ⟨2, ![1, 1024]⟩
abbrev S256x8192 : Shape := ⟨2, ![256, 8192]⟩
abbrev S1x8192 : Shape := ⟨2, ![1, 8192]⟩
abbrev S4096x32000 : Shape := ⟨2, ![4096, 32000]⟩
abbrev S2048x4096 : Shape := ⟨2, ![2048, 4096]⟩
abbrev S2048x256 : Shape := ⟨2, ![2048, 256]⟩
abbrev S1x256 : Shape := ⟨2, ![1, 256]⟩

abbrev nBuf : Space → Nat
  | .hbm => 34
  | .vmem => 14
  | .smem => 0
  | _ => 0

abbrev bufTy : (tb : Table) → Fin (tcTables nBuf tb) → BufTy
  | .hbm, ⟨0, _⟩ => ⟨S2x2048, .i32⟩
  | .hbm, ⟨1, _⟩ => ⟨S32000x1024, .f32⟩
  | .hbm, ⟨2, _⟩ => ⟨S1024, .f32⟩
  | .hbm, ⟨3, _⟩ => ⟨S8192x1024, .f32⟩
  | .hbm, ⟨4, _⟩ => ⟨S8192, .f32⟩
  | .hbm, ⟨5, _⟩ => ⟨S32000x4096, .f32⟩
  | .hbm, ⟨6, _⟩ => ⟨S32000, .f32⟩
  | .hbm, ⟨7, _⟩ => ⟨S4096, .i32⟩
  | .hbm, ⟨8, _⟩ => ⟨S_, .i32⟩
  | .hbm, ⟨9, _⟩ => ⟨S4096, .i32⟩
  | .hbm, ⟨10, _⟩ => ⟨S4096, .i1⟩
  | .hbm, ⟨11, _⟩ => ⟨S_, .i32⟩
  | .hbm, ⟨12, _⟩ => ⟨S4096, .i32⟩
  | .hbm, ⟨13, _⟩ => ⟨S4096, .i32⟩
  | .hbm, ⟨14, _⟩ => ⟨S4096, .i32⟩
  | .hbm, ⟨15, _⟩ => ⟨S4096x1, .i32⟩
  | .hbm, ⟨16, _⟩ => ⟨S1, .i32⟩
  | .hbm, ⟨17, _⟩ => ⟨S_, .i32⟩
  | .hbm, ⟨18, _⟩ => ⟨S4096x1, .i32⟩
  | .hbm, ⟨19, _⟩ => ⟨S4096x1, .i1⟩
  | .hbm, ⟨20, _⟩ => ⟨S1x1, .i32⟩
  | .hbm, ⟨21, _⟩ => ⟨S4096x1, .i32⟩
  | .hbm, ⟨22, _⟩ => ⟨S4096x1, .i1⟩
  | .hbm, ⟨23, _⟩ => ⟨S4096x1, .i1⟩
  | .hbm, ⟨24, _⟩ => ⟨S_, .i1⟩
  | .hbm, ⟨25, _⟩ => ⟨S4096, .i1⟩
  | .hbm, ⟨26, _⟩ => ⟨S4096x1024, .f32⟩
  | .hbm, ⟨27, _⟩ => ⟨S4096x1024, .i1⟩
  | .hbm, ⟨28, _⟩ => ⟨S_, .f32⟩
  | .hbm, ⟨29, _⟩ => ⟨S4096x1024, .f32⟩
  | .hbm, ⟨30, _⟩ => ⟨S4096x1024, .f32⟩
  | .hbm, ⟨31, _⟩ => ⟨S8192x1024, .bf16⟩
  | .hbm, ⟨32, _⟩ => ⟨S4096x4096, .bf16⟩
  | .hbm, ⟨33, _⟩ => ⟨S4096x32000, .f32⟩
  | .local _ .vmem, ⟨0, _⟩ => ⟨S256x1024, .f32⟩
  | .local _ .vmem, ⟨1, _⟩ => ⟨S256x1024, .f32⟩
  | .local _ .vmem, ⟨2, _⟩ => ⟨S1024, .f32⟩
  | .local _ .vmem, ⟨3, _⟩ => ⟨S8192x1024, .bf16⟩
  | .local _ .vmem, ⟨4, _⟩ => ⟨S8192, .f32⟩
  | .local _ .vmem, ⟨5, _⟩ => ⟨S256x4096, .bf16⟩
  | .local _ .vmem, ⟨6, _⟩ => ⟨S256x4096, .bf16⟩
  | .local _ .vmem, ⟨7, _⟩ => ⟨S2048x4096, .bf16⟩
  | .local _ .vmem, ⟨8, _⟩ => ⟨S256x4096, .f32⟩
  | .local _ .vmem, ⟨9, _⟩ => ⟨S256x4096, .f32⟩
  | .local _ .vmem, ⟨10, _⟩ => ⟨S256, .f32⟩
  | .local _ .vmem, ⟨11, _⟩ => ⟨S256, .f32⟩
  | .local _ .vmem, ⟨12, _⟩ => ⟨S2048x256, .f32⟩
  | .local _ .vmem, ⟨13, _⟩ => ⟨S2048x256, .f32⟩
  | _, _ => ⟨S2x2048, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_call0_c : Ref sig .tc := ⟨.hbm, 8, rfl⟩
abbrev main_call0_v0 : Ref sig .tc := ⟨.hbm, 9, rfl⟩
abbrev main_call0_v1 : Ref sig .tc := ⟨.hbm, 10, rfl⟩
abbrev main_call0_c_0 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_c_1 : Ref sig .tc := ⟨.hbm, 16, rfl⟩
abbrev main_call0_c_2 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_c_3 : Ref sig .tc := ⟨.hbm, 24, rfl⟩
abbrev main_call0_v12 : Ref sig .tc := ⟨.hbm, 25, rfl⟩
abbrev main_call0_v13 : Ref sig .tc := ⟨.hbm, 26, rfl⟩
abbrev main_call0_v14 : Ref sig .tc := ⟨.hbm, 27, rfl⟩
abbrev main_call0_cst : Ref sig .tc := ⟨.hbm, 28, rfl⟩
abbrev main_call0_v15 : Ref sig .tc := ⟨.hbm, 29, rfl⟩
abbrev main_v1 : Ref sig .tc := ⟨.hbm, 30, rfl⟩
abbrev main_v2 : Ref sig .tc := ⟨.hbm, 31, rfl⟩
abbrev main_v3 : Ref sig .tc := ⟨.hbm, 32, rfl⟩
abbrev main_v4 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc1_stg0_0 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc1_sem0_0 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8192x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨2, ![2, 125], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 1 → Nat :=
  let arg0 : BitVec 32 := BitVec.ofNat 32 (i 0).val
  let arg1 : BitVec 32 := BitVec.ofNat 32 (i 1).val
  let c0_i32 : BitVec 32 := 0#32
  ![arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 1 → Memref sig .tc .vmem S2048x4096 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true, false]

abbrev stage1_1 : Fin 2 → Memref sig .tc .vmem S256x4096 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S2048x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

class Facts₀ : Prop where
  shapeCasts_S2x2048_S4096 : S2x2048.ShapeCasts S4096
  bcast_S_S4096 : S_.BroadcastsInDim S4096 (![] : Fin 0 → Fin S4096.rank)
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S1_S1x1_1 : S1.BroadcastsInDim S1x1 (![1] : Fin 1 → Fin S1x1.rank)
  bcast_S1x1_S4096x1_0_1 : S1x1.BroadcastsInDim S4096x1 (![0, 1] : Fin 2 → Fin S4096x1.rank)
  reducesTo_S4096x1_S4096_d1 : S4096x1.ReducesTo [1] S4096
  h_S_ : 0 < S_.numel
  bcast_S4096_S4096x1024_0 : S4096.BroadcastsInDim S4096x1024 (![0] : Fin 1 → Fin S4096x1024.rank)
  bcast_S_S4096x1024 : S_.BroadcastsInDim S4096x1024 (![] : Fin 0 → Fin S4096x1024.rank)
  bitsLt_bf16_f32 : FTy.bits .bf16 < FTy.bits .f32
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  reduces_S256x1024_S256 : S256x1024.Reduces [1] S256
  shapeCasts_S256_S256x1 : S256.ShapeCasts S256x1
  broadcasts_S256x1_S256x1024 : S256x1.Broadcasts S256x1024
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S256x1024 : S1x1024.Broadcasts S256x1024
  inb_S8192x1024_S8192x1024_0_0 : ∀ a, (![0, 0] : Fin 2 → Nat) a + S8192x1024.size a ≤ S8192x1024.size a
  h_S8192x1024 : 0 < S8192x1024.numel
  shapeCasts_S8192x1024_S8192x1024 : S8192x1024.ShapeCasts S8192x1024
  inb_S8192_S8192_0 : ∀ a, (![0] : Fin 1 → Nat) a + S8192.size a ≤ S8192.size a
  h_S8192 : 0 < S8192.numel
  shapeCasts_S8192_S1x8192 : S8192.ShapeCasts S1x8192
  broadcasts_S1x8192_S256x8192 : S1x8192.Broadcasts S256x8192
  slices_S256x8192_o0_0_S256x4096 : S256x8192.Slices ![0, 0] S256x4096
  slices_S256x8192_o0_4096_S256x4096 : S256x8192.Slices ![0, 4096] S256x4096
  inb_S256x4096_S256x4096_0_0 : ∀ a, (![0, 0] : Fin 2 → Nat) a + S256x4096.size a ≤ S256x4096.size a
  h_S256x4096 : 0 < S256x4096.numel
  packedbf16_S256x4096_S256x4096_0_0 : (Rect.unit (s := S256x4096) ![0, 0] S256x4096.size inb_S256x4096_S256x4096_0_0).PackedRows (EltTy.packing .bf16)
  inb_S2048x4096_S2048x4096_0_0 : ∀ a, (![0, 0] : Fin 2 → Nat) a + S2048x4096.size a ≤ S2048x4096.size a
  h_S2048x4096 : 0 < S2048x4096.numel
  shapeCasts_S2048x4096_S2048x4096 : S2048x4096.ShapeCasts S2048x4096
  inb_S256_S256_0 : ∀ a, (![0] : Fin 1 → Nat) a + S256.size a ≤ S256.size a
  h_S256 : 0 < S256.numel
  shapeCasts_S256_S1x256 : S256.ShapeCasts S1x256
  broadcasts_S1x256_S2048x256 : S1x256.Broadcasts S2048x256
  inb_S2048x256_S2048x256_0_0 : ∀ a, (![0, 0] : Fin 2 → Nat) a + S2048x256.size a ≤ S2048x256.size a
  h_S2048x256 : 0 < S2048x256.numel
  gather_S32000x1024_S4096x1_S4096x1024_1_0_n_n_0_1_11024_wf : GatherDims.WF S32000x1024 S4096x1 S4096x1024 [1] [0] [] [0] [] 1 ![1, 1024]
  dot_S256x1024_S8192x1024_S256x8192_1_1_0_0_n_n_wf : DotDims.WF S256x1024 S8192x1024 S256x8192 [1] [1] [0] [0] [] []
  dot_S2048x4096_S256x4096_S2048x256_1_1_0_0_n_n_wf : DotDims.WF S2048x4096 S256x4096 S2048x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S4096x1024.size a
  hwx0_0 : ∀ i : grid0.Coords, EltTy.bits .f32 = 32 ∨ (Rect.block (s := S4096x1024) S256x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024.size a ≤ S1024.size a
  hwx0_1 : ∀ i : grid0.Coords, EltTy.bits .f32 = 32 ∨ (Rect.block (s := S1024) S1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S8192x1024.size a ≤ S8192x1024.size a
  hwx0_2 : ∀ i : grid0.Coords, EltTy.bits .bf16 = 32 ∨ (Rect.block (s := S8192x1024) S8192x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S8192.size a ≤ S8192.size a
  hwx0_3 : ∀ i : grid0.Coords, EltTy.bits .f32 = 32 ∨ (Rect.block (s := S8192) S8192.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x4096.size a ≤ S4096x4096.size a
  hwx0_4 : ∀ i : grid0.Coords, EltTy.bits .bf16 = 32 ∨ (Rect.block (s := S4096x4096) S256x4096.size (cc0_transform_4 i) (hinb0_4 i)).WholeWords (EltTy.packing .bf16)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S2048x4096.size a ≤ S4096x4096.size a
  hwx1_0 : ∀ i : grid1.Coords, EltTy.bits .bf16 = 32 ∨ (Rect.block (s := S4096x4096) S2048x4096.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S256x4096.size a ≤ S32000x4096.size a
  hwx1_1 : ∀ i : grid1.Coords, EltTy.bits .f32 = 32 ∨ (Rect.block (s := S32000x4096) S256x4096.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S256.size a ≤ S32000.size a
  hwx1_2 : ∀ i : grid1.Coords, EltTy.bits .f32 = 32 ∨ (Rect.block (s := S32000) S256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2048x256.size a ≤ S4096x32000.size a
  hwx1_3 : ∀ i : grid1.Coords, EltTy.bits .f32 = 32 ∨ (Rect.block (s := S4096x32000) S2048x256.size (cc1_transform_3 i) (hinb1_3 i)).WholeWords (EltTy.packing .f32)

variable [Facts₀]

def gather_S32000x1024_S4096x1_S4096x1024_1_0_n_n_0_1_11024 : GatherDims S32000x1024 S4096x1 S4096x1024 where
  offsetDims := [1]
  collapsedSliceDims := [0]
  operandBatchingDims := []
  startIndicesBatchingDims := []
  startIndexMap := [0]
  indexVectorDim := 1
  sliceSizes := ![1, 1024]
  wf := gather_S32000x1024_S4096x1_S4096x1024_1_0_n_n_0_1_11024_wf
def dot_S256x1024_S8192x1024_S256x8192_1_1_0_0_n_n : DotDims S256x1024 S8192x1024 S256x8192 where
  lhsContracting := [1]
  rhsContracting := [1]
  lhsNonContracting := [0]
  rhsNonContracting := [0]
  lhsBatch := []
  rhsBatch := []
  wf := dot_S256x1024_S8192x1024_S256x8192_1_1_0_0_n_n_wf
def dot_S2048x4096_S256x4096_S2048x256_1_1_0_0_n_n : DotDims S2048x4096 S256x4096 S2048x256 where
  lhsContracting := [1]
  rhsContracting := [1]
  lhsNonContracting := [0]
  rhsNonContracting := [0]
  lhsBatch := []
  rhsBatch := []
  wf := dot_S2048x4096_S256x4096_S2048x256_1_1_0_0_n_n_wf

abbrev win0_0 : Pipeline.Window sig grid0 :=
  Pipeline.Window.ofSpec (Memref.whole main_v1) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S8192x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S8192.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S256x4096.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v3) S2048x4096.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S256x4096.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S256.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v4) S2048x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S2x2048 : Shape := ⟨2, ![2, 2048]⟩
abbrev S32000x1024 : Shape := ⟨2, ![32000, 1024]⟩
abbrev S1024 : Shape := ⟨1, ![1024]⟩
abbrev S8192x1024 : Shape := ⟨2, ![8192, 1024]⟩
abbrev S8192 : Shape := ⟨1, ![8192]⟩
abbrev S32000x4096 : Shape := ⟨2, ![32000, 4096]⟩
abbrev S32000 : Shape := ⟨1, ![32000]⟩
abbrev S4096 : Shape := ⟨1, ![4096]⟩
abbrev S_ : Shape := ⟨0, ![]⟩
abbrev S4096x1 : Shape := ⟨2, ![4096, 1]⟩
abbrev S4096x1024 : Shape := ⟨2, ![4096, 1024]⟩
abbrev S1x1024 : Shape := ⟨2, ![1, 1024]⟩
abbrev S1024x8192 : Shape := ⟨2, ![1024, 8192]⟩
abbrev S4096x8192 : Shape := ⟨2, ![4096, 8192]⟩
abbrev S1x8192 : Shape := ⟨2, ![1, 8192]⟩
abbrev S4096x4096 : Shape := ⟨2, ![4096, 4096]⟩
abbrev S4096x32000 : Shape := ⟨2, ![4096, 32000]⟩
abbrev S1x32000 : Shape := ⟨2, ![1, 32000]⟩

abbrev nBuf : Space → Nat
  | .hbm => 55
  | .vmem => 0
  | .smem => 0
  | _ => 0

abbrev bufTy : (tb : Table) → Fin (tcTables nBuf tb) → BufTy
  | .hbm, ⟨0, _⟩ => ⟨S2x2048, .i32⟩
  | .hbm, ⟨1, _⟩ => ⟨S32000x1024, .f32⟩
  | .hbm, ⟨2, _⟩ => ⟨S1024, .f32⟩
  | .hbm, ⟨3, _⟩ => ⟨S8192x1024, .f32⟩
  | .hbm, ⟨4, _⟩ => ⟨S8192, .f32⟩
  | .hbm, ⟨5, _⟩ => ⟨S32000x4096, .f32⟩
  | .hbm, ⟨6, _⟩ => ⟨S32000, .f32⟩
  | .hbm, ⟨7, _⟩ => ⟨S4096, .i32⟩
  | .hbm, ⟨8, _⟩ => ⟨S_, .i32⟩
  | .hbm, ⟨9, _⟩ => ⟨S4096, .i32⟩
  | .hbm, ⟨10, _⟩ => ⟨S4096, .i1⟩
  | .hbm, ⟨11, _⟩ => ⟨S_, .i32⟩
  | .hbm, ⟨12, _⟩ => ⟨S4096, .i32⟩
  | .hbm, ⟨13, _⟩ => ⟨S4096, .i32⟩
  | .hbm, ⟨14, _⟩ => ⟨S4096, .i32⟩
  | .hbm, ⟨15, _⟩ => ⟨S4096x1, .i32⟩
  | .hbm, ⟨16, _⟩ => ⟨S4096x1024, .f32⟩
  | .hbm, ⟨17, _⟩ => ⟨S4096x1024, .f32⟩
  | .hbm, ⟨18, _⟩ => ⟨S_, .f32⟩
  | .hbm, ⟨19, _⟩ => ⟨S4096, .f32⟩
  | .hbm, ⟨20, _⟩ => ⟨S4096x1, .f32⟩
  | .hbm, ⟨21, _⟩ => ⟨S_, .f32⟩
  | .hbm, ⟨22, _⟩ => ⟨S4096x1, .f32⟩
  | .hbm, ⟨23, _⟩ => ⟨S4096x1, .f32⟩
  | .hbm, ⟨24, _⟩ => ⟨S_, .f32⟩
  | .hbm, ⟨25, _⟩ => ⟨S4096x1, .f32⟩
  | .hbm, ⟨26, _⟩ => ⟨S4096x1, .f32⟩
  | .hbm, ⟨27, _⟩ => ⟨S4096x1, .f32⟩
  | .hbm, ⟨28, _⟩ => ⟨S4096x1024, .f32⟩
  | .hbm, ⟨29, _⟩ => ⟨S4096x1024, .f32⟩
  | .hbm, ⟨30, _⟩ => ⟨S1x1024, .f32⟩
  | .hbm, ⟨31, _⟩ => ⟨S4096x1024, .f32⟩
  | .hbm, ⟨32, _⟩ => ⟨S4096x1024, .f32⟩
  | .hbm, ⟨33, _⟩ => ⟨S1024x8192, .f32⟩
  | .hbm, ⟨34, _⟩ => ⟨S4096x8192, .f32⟩
  | .hbm, ⟨35, _⟩ => ⟨S1x8192, .f32⟩
  | .hbm, ⟨36, _⟩ => ⟨S4096x8192, .f32⟩
  | .hbm, ⟨37, _⟩ => ⟨S4096x8192, .f32⟩
  | .hbm, ⟨38, _⟩ => ⟨S4096x4096, .f32⟩
  | .hbm, ⟨39, _⟩ => ⟨S4096x4096, .f32⟩
  | .hbm, ⟨40, _⟩ => ⟨S4096x4096, .f32⟩
  | .hbm, ⟨41, _⟩ => ⟨S4096x4096, .f32⟩
  | .hbm, ⟨42, _⟩ => ⟨S_, .f32⟩
  | .hbm, ⟨43, _⟩ => ⟨S4096x4096, .f32⟩
  | .hbm, ⟨44, _⟩ => ⟨S4096x4096, .f32⟩
  | .hbm, ⟨45, _⟩ => ⟨S_, .f32⟩
  | .hbm, ⟨46, _⟩ => ⟨S4096x4096, .f32⟩
  | .hbm, ⟨47, _⟩ => ⟨S4096x4096, .f32⟩
  | .hbm, ⟨48, _⟩ => ⟨S4096x4096, .f32⟩
  | .hbm, ⟨49, _⟩ => ⟨S4096x4096, .f32⟩
  | .hbm, ⟨50, _⟩ => ⟨S4096x32000, .f32⟩
  | .hbm, ⟨51, _⟩ => ⟨S4096x32000, .f32⟩
  | .hbm, ⟨52, _⟩ => ⟨S1x32000, .f32⟩
  | .hbm, ⟨53, _⟩ => ⟨S4096x32000, .f32⟩
  | .hbm, ⟨54, _⟩ => ⟨S4096x32000, .f32⟩
  | _, _ => ⟨S2x2048, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_c_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_call0_v0 : Ref sig .tc := ⟨.hbm, 40, rfl⟩
abbrev main_call0_v1 : Ref sig .tc := ⟨.hbm, 41, rfl⟩
abbrev main_call0_cst : Ref sig .tc := ⟨.hbm, 42, rfl⟩
abbrev main_call0_v2 : Ref sig .tc := ⟨.hbm, 43, rfl⟩
abbrev main_call0_v3 : Ref sig .tc := ⟨.hbm, 44, rfl⟩
abbrev main_call0_cst_0 : Ref sig .tc := ⟨.hbm, 45, rfl⟩
abbrev main_call0_v4 : Ref sig .tc := ⟨.hbm, 46, rfl⟩
abbrev main_call0_v5 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩

abbrev nD : Nat := 1
abbrev τ : Topo := Topo.v7x

variable {F : FTy → Type} [FloatOps F]

class Facts₀ : Prop where
  shapeCasts_S2x2048_S4096 : S2x2048.ShapeCasts S4096
  bcast_S_S4096 : S_.BroadcastsInDim S4096 (![] : Fin 0 → Fin S4096.rank)
  bcast_S4096_S4096x1_0 : S4096.BroadcastsInDim S4096x1 (![0] : Fin 1 → Fin S4096x1.rank)
  reducesTo_S4096x1024_S4096_d1 : S4096x1024.ReducesTo [1] S4096
  h_S_ : 0 < S_.numel
  bcast_S_S4096x1 : S_.BroadcastsInDim S4096x1 (![] : Fin 0 → Fin S4096x1.rank)
  bcast_S4096x1_S4096x1024_0_1 : S4096x1.BroadcastsInDim S4096x1024 (![0, 1] : Fin 2 → Fin S4096x1024.rank)
  bcast_S1024_S1x1024_1 : S1024.BroadcastsInDim S1x1024 (![1] : Fin 1 → Fin S1x1024.rank)
  bcast_S1x1024_S4096x1024_0_1 : S1x1024.BroadcastsInDim S4096x1024 (![0, 1] : Fin 2 → Fin S4096x1024.rank)
  transposes_S8192x1024_S1024x8192_1_0 : S8192x1024.Transposes [1, 0] S1024x8192
  bcast_S8192_S1x8192_1 : S8192.BroadcastsInDim S1x8192 (![1] : Fin 1 → Fin S1x8192.rank)
  bcast_S1x8192_S4096x8192_0_1 : S1x8192.BroadcastsInDim S4096x8192 (![0, 1] : Fin 2 → Fin S4096x8192.rank)
  slices_S4096x8192_S4096x4096_0_0 : S4096x8192.Slices ![0, 0] S4096x4096
  slices_S4096x8192_S4096x4096_0_4096 : S4096x8192.Slices ![0, 4096] S4096x4096
  bcast_S_S4096x4096 : S_.BroadcastsInDim S4096x4096 (![] : Fin 0 → Fin S4096x4096.rank)
  transposes_S32000x4096_S4096x32000_1_0 : S32000x4096.Transposes [1, 0] S4096x32000
  bcast_S32000_S1x32000_1 : S32000.BroadcastsInDim S1x32000 (![1] : Fin 1 → Fin S1x32000.rank)
  bcast_S1x32000_S4096x32000_0_1 : S1x32000.BroadcastsInDim S4096x32000 (![0, 1] : Fin 2 → Fin S4096x32000.rank)
  gather_S32000x1024_S4096x1_S4096x1024_1_0_n_n_0_1_11024_wf : GatherDims.WF S32000x1024 S4096x1 S4096x1024 [1] [0] [] [0] [] 1 ![1, 1024]
  dot_S4096x1024_S1024x8192_S4096x8192_1_0_0_1_n_n_wf : DotDims.WF S4096x1024 S1024x8192 S4096x8192 [1] [0] [0] [1] [] []
  dot_S4096x4096_S4096x32000_S4096x32000_1_0_0_1_n_n_wf : DotDims.WF S4096x4096 S4096x32000 S4096x32000 [1] [0] [0] [1] [] []

variable [Facts₀]

def gather_S32000x1024_S4096x1_S4096x1024_1_0_n_n_0_1_11024 : GatherDims S32000x1024 S4096x1 S4096x1024 where
  offsetDims := [1]
  collapsedSliceDims := [0]
  operandBatchingDims := []
  startIndicesBatchingDims := []
  startIndexMap := [0]
  indexVectorDim := 1
  sliceSizes := ![1, 1024]
  wf := gather_S32000x1024_S4096x1_S4096x1024_1_0_n_n_0_1_11024_wf
def dot_S4096x1024_S1024x8192_S4096x8192_1_0_0_1_n_n : DotDims S4096x1024 S1024x8192 S4096x8192 where
  lhsContracting := [1]
  rhsContracting := [0]
  lhsNonContracting := [0]
  rhsNonContracting := [1]
  lhsBatch := []
  rhsBatch := []
  wf := dot_S4096x1024_S1024x8192_S4096x8192_1_0_0_1_n_n_wf
def dot_S4096x4096_S4096x32000_S4096x32000_1_0_0_1_n_n : DotDims S4096x4096 S4096x32000 S4096x32000 where
  lhsContracting := [1]
  rhsContracting := [0]
  lhsNonContracting := [0]
  rhsNonContracting := [1]
  lhsBatch := []
  rhsBatch := []
  wf := dot_S4096x4096_S4096x32000_S4096x32000_1_0_0_1_n_n_wf

class Facts : Prop extends Facts₀ where

variable [Facts]
-- ==== Proof.TakeDefs.lean ====
/-
  The kernel program's embedding lookup, as the term its host operations compose.

  Token ids arrive as a 2 × 2048 array and are flattened to 4096. A negative id is wrapped once by adding the table's
  32000 rows; the wrapped ids, as a 4096 × 1 column, are the start indices of a row gather from the table. Rows whose
  wrapped id lies outside [0, 31999] are then replaced by the not-a-number word: the row mask is the conjunction over the
  column's one entry of "id ≥ 0" and "id ≤ 31999".
-/
import proofs.«402073_j5025111736662_3_alg».proof.Proof.Gen.KernelIdeal

noncomputable section

namespace Cert.GatedMlp.Take

open Idealize.ShloMosaic Cert.KernelIdeal Cert.KernelIdeal.Facts₀

variable {F : FTy → Type} [FloatOps F]

/-- The flattened ids, negative ones wrapped once by 32000, as the gather's 4096 × 1 column of start indices. -/
def wrapped (ids : IVec S2x2048 32) : IVec S4096x1 32 :=
  broadcastInDim S4096x1 ![0] bcast_S4096_S4096x1_0
    (select (cmpi .slt (shapeCast S4096 ids shapeCasts_S2x2048_S4096) (broadcastInDim S4096 ![] bcast_S_S4096 (constantI S_ 32 0#32)))
      (addi (shapeCast S4096 ids shapeCasts_S2x2048_S4096) (broadcastInDim S4096 ![] bcast_S_S4096 (constantI S_ 32 32000#32)))
      (shapeCast S4096 ids shapeCasts_S2x2048_S4096))

/-- The row mask: 1 where the wrapped id lies in [0, 31999]. -/
def inRange (ids : IVec S2x2048 32) : IVec S4096 1 :=
  Host.reduce IntOp.andi
    (andi (cmpi .sge (wrapped ids) (broadcastInDim S4096x1 ![] bcast_S_S4096x1 (constantI S_ 32 0#32)))
      (cmpi .sle (wrapped ids) (broadcastInDim S4096x1 ![0, 1] bcast_S1x1_S4096x1_0_1 (broadcastInDim S1x1 ![1] bcast_S1_S1x1_1 (constantI S1 32 31999#32)))))
    (constantI S_ 1 1#1) reducesTo_S4096x1_S4096_d1 h_S_

/-- The gathered rows. -/
def gathered (ids : IVec S2x2048 32) (emb : FVec F S32000x1024 .f32) : FVec F S4096x1024 .f32 :=
  Host.gather gather_S32000x1024_S4096x1_S4096x1024_1_0_n_n_0_1_11024 emb (wrapped ids)

/-- The lookup's result: the gathered rows where the mask is set, the not-a-number word elsewhere. -/
def taken (ids : IVec S2x2048 32) (emb : FVec F S32000x1024 .f32) : FVec F S4096x1024 .f32 :=
  select (broadcastInDim S4096x1024 ![0] bcast_S4096_S4096x1024_0 (inRange ids)) (gathered ids emb)
    (broadcastInDim S4096x1024 ![] bcast_S_S4096x1024 (constant S_ .f32 0x7FC00000#32))

end Cert.GatedMlp.Take

end
-- ==== Proof.HostReads.lean ====
/-
  What each region of the kernel program finds in the arrays it reads.

  Before the first region the host flattens and looks up the token rows and narrows the first weight matrix to bfloat16
  (the identity over the extended reals); the gain and the first bias are argument arrays, untouched. The second region
  reads the first region's output array and two argument arrays that no earlier step writes; the result buffer ends at
  the second region's output array after its last write-back.
-/
import proofs.«402073_j5025111736662_3_alg».proof.Proof.Gen.KernelIdeal.Frame
import proofs.«402073_j5025111736662_3_alg».proof.Proof.TakeDefs
import Idealize.ShloMosaic.Lib.StableHlo.Run

set_option maxRecDepth 16384

noncomputable section

namespace Cert.GatedMlp.Host

open Idealize.ShloMosaic Idealize.ShloMosaic.TcCoe Idealize.ShloMosaic.StableHlo Idealize.SL.Sem
open Cert.KernelIdeal Cert.KernelIdeal.Gen

variable {F : FTy → Type} [FloatOps F]
variable (m : (ℓ : Loc nD τ sig) → Buf (Elt F) ℓ) (ρ : Dev nD → PrngReg)

/-- Narrowing the weights leaves the token rows as the lookup wrote them. -/
theorem rows_before_narrowing (c : Dev nD) : V3 m ρ c main_v1 = W2 m ρ c (Proc.devRef .tc main_v1) := by
  show StableHlo.after hostOps0_2 (W2 m ρ c) (Proc.devRef .tc main_v1) = _
  dsimp only [hostOps0_2]
  after_results

set_option maxHeartbeats 1000000 in
/-- The first region's token rows are the lookup's result. -/
theorem rows_at_entry (c : Dev nD) :
    V3 m ρ c main_v1 = Take.taken (F := F) (m ((c : Thread nD τ).loc main_arg0)) (m ((c : Thread nD τ).loc main_arg1)) := by
  refine (rows_before_narrowing m ρ c).trans ?_
  show StableHlo.after hostOps0_1 (StableHlo.after hostOps0 (W0 m ρ c)) (Proc.devRef .tc main_v1) = _
  dsimp only [hostOps0, hostOps0_1]
  after_results_simp
  rfl

/-- The gain is the argument array. -/
theorem gain_at_entry (c : Dev nD) : V3 m ρ c main_arg2 = m ((c : Thread nD τ).loc main_arg2) := by
  show StableHlo.after hostOps0_2 (StableHlo.after hostOps0_1 (StableHlo.after hostOps0 (W0 m ρ c))) (Proc.devRef .tc main_arg2) = _
  dsimp only [hostOps0, hostOps0_1, hostOps0_2]
  after_results

/-- The first bias is the argument array. -/
theorem bias1_at_entry (c : Dev nD) : V3 m ρ c main_arg4 = m ((c : Thread nD τ).loc main_arg4) := by
  show StableHlo.after hostOps0_2 (StableHlo.after hostOps0_1 (StableHlo.after hostOps0 (W0 m ρ c))) (Proc.devRef .tc main_arg4) = _
  dsimp only [hostOps0, hostOps0_1, hostOps0_2]
  after_results

/-- The first weight matrix, narrowed. -/
theorem weight1_at_entry (c : Dev nD) :
    V3 m ρ c main_v2 = truncf .bf16 (m ((c : Thread nD τ).loc main_arg3) : FVec F S8192x1024 .f32) Facts₀.bitsLt_bf16_f32 := by
  show StableHlo.after hostOps0_2 (StableHlo.after hostOps0_1 (StableHlo.after hostOps0 (W0 m ρ c))) (Proc.devRef .tc main_v2) = _
  dsimp only [hostOps0, hostOps0_1, hostOps0_2]
  after_results

/-- The second region reads the first region's output array as its last write-back left it. -/
theorem gated_at_entry (c : Dev nD) : V4 m ρ c main_v3 = (dat0 (V3 m ρ) c).arrAt 4 cfg0.N := W4_arr m ρ c 4

/-- The output weights are the argument array. -/
theorem weight2_at_entry (c : Dev nD) : V4 m ρ c main_arg5 = m ((c : Thread nD τ).loc main_arg5) := by
  refine (W4_of_ne m ρ c main_arg5 (by decide)).trans ?_
  show StableHlo.after hostOps0_2 (StableHlo.after hostOps0_1 (StableHlo.after hostOps0 (W0 m ρ c))) (Proc.devRef .tc main_arg5) = _
  dsimp only [hostOps0, hostOps0_1, hostOps0_2]
  after_results

/-- The output bias is the argument array. -/
theorem bias2_at_entry (c : Dev nD) : V4 m ρ c main_arg6 = m ((c : Thread nD τ).loc main_arg6) := by
  refine (W4_of_ne m ρ c main_arg6 (by decide)).trans ?_
  show StableHlo.after hostOps0_2 (StableHlo.after hostOps0_1 (StableHlo.after hostOps0 (W0 m ρ c))) (Proc.devRef .tc main_arg6) = _
  dsimp only [hostOps0, hostOps0_1, hostOps0_2]
  after_results

/-- The result buffer ends at the second region's output array after its last write-back. -/
theorem result_at_exit (c : Dev nD) : W5 m ρ c (Proc.devRef .tc main_v4) = (dat1 (V4 m ρ) c).arrAt 3 cfg1.N := W5_arr m ρ c 3

end Cert.GatedMlp.Host

end
-- ==== Proof.TakeInRange.lean ====
/-
  The embedding lookup when every token id is a valid row number.

  With every id in [0, 32000) as a signed word, no id is negative, so the wrap by 32000 changes nothing; each wrapped id
  then lies in [0, 31999], so every row's mask bit is 1 and the lookup's result is the gathered rows themselves.
-/
import proofs.«402073_j5025111736662_3_alg».proof.Proof.TakeDefs
import Idealize.ShloMosaic.Lib.ReduceAll
import Idealize.ShloMosaic.Lib.ValueIdx

noncomputable section

namespace Cert.GatedMlp.Take

open Idealize.ShloMosaic Idealize.ShloMosaic.ValueIdx Cert.KernelIdeal Cert.KernelIdeal.Facts₀

variable {F : FTy → Type} [FloatOps F]

/-! ## One id -/

/-- A one-bit word is 0 or 1, so one that cannot be 1 is 0. -/
theorem slt_zero_eq_zero {x : BitVec 32} (h0 : IntOp.cmpi .sge x 0#32 = 1#1) : IntOp.cmpi .slt x 0#32 = 0#1 := by
  refine eq_zero_of_ne_one fun hlt => ?_
  have h1 := IntOp.cmpi_sge.1 h0
  have h2 := IntOp.cmpi_slt.1 hlt
  omega

/-- A nonnegative id is not wrapped. -/
theorem wrap_id {x : BitVec 32} (h0 : IntOp.cmpi .sge x 0#32 = 1#1) :
    Scalar.select (IntOp.cmpi .slt x 0#32) (IntOp.addi x 32000#32) x = x := by
  rw [slt_zero_eq_zero h0]
  exact select_zero _ _

/-- An id below 32000 is at most 31999. -/
theorem sle_of_slt {x : BitVec 32} (h1 : IntOp.cmpi .slt x 32000#32 = 1#1) : IntOp.cmpi .sle x 31999#32 = 1#1 := by
  have h2 := IntOp.cmpi_slt.1 h1
  have e0 : (32000#32 : BitVec 32).toInt = 32000 := by decide
  have e1 : (31999#32 : BitVec 32).toInt = 31999 := by decide
  refine IntOp.cmpi_sle.2 ?_
  omega

/-! ## The wrapped ids -/

/-- Each wrapped id is the wrap of one of the ids. -/
theorem wrapped_apply (ids : IVec S2x2048 32) (i : S4096x1.Idx) :
    ∃ j : S2x2048.Idx, wrapped ids i = Scalar.select (IntOp.cmpi .slt (ids j) 0#32) (IntOp.addi (ids j) 32000#32) (ids j) :=
  ⟨_, rfl⟩

/-- With every id in range each wrapped id is one of the ids, so in range too. -/
theorem wrapped_inRange (ids : IVec S2x2048 32)
    (h : ∀ i : S2x2048.Idx, IntOp.cmpi .sge (ids i) 0#32 = 1#1 ∧ IntOp.cmpi .slt (ids i) 32000#32 = 1#1) (i : S4096x1.Idx) :
    IntOp.cmpi .sge (wrapped ids i) 0#32 = 1#1 ∧ IntOp.cmpi .sle (wrapped ids i) 31999#32 = 1#1 := by
  obtain ⟨j, e⟩ := wrapped_apply ids i
  rw [e, wrap_id (h j).1]
  exact ⟨(h j).1, sle_of_slt (h j).2⟩

/-! ## The row mask -/

/-- A left fold by `and` over one-bit words that starts at 1 and meets only 1s ends at 1. -/
theorem foldl_andi_one {ι : Type} (f : ι → BitVec 1) (hf : ∀ n, f n = 1#1) :
    ∀ (l : List ι) (init : BitVec 1), init = 1#1 → l.foldl (fun r n => IntOp.andi r (f n)) init = 1#1
  | [], _, h => h
  | a :: l, init, h => by
    rw [List.foldl_cons]
    exact foldl_andi_one f hf l _ (IntOp.andi_eq_one.2 ⟨h, hf a⟩)

/-- With every id in range every row's mask bit is 1. -/
theorem inRange_eq_one (ids : IVec S2x2048 32)
    (h : ∀ i : S2x2048.Idx, IntOp.cmpi .sge (ids i) 0#32 = 1#1 ∧ IntOp.cmpi .slt (ids i) 32000#32 = 1#1) (j : S4096.Idx) :
    inRange ids j = 1#1 := by
  unfold inRange
  rw [Host.reduce_eq_foldl]
  refine foldl_andi_one _ (fun i => ?_) _ _ rfl
  exact IntOp.andi_eq_one.2 (wrapped_inRange ids h i)

/-! ## The lookup -/

/-- With every id in range the lookup's result is the gathered rows. -/
theorem taken_eq_gathered (ids : IVec S2x2048 32) (emb : FVec F S32000x1024 .f32)
    (h : ∀ i : S2x2048.Idx, IntOp.cmpi .sge (ids i) 0#32 = 1#1 ∧ IntOp.cmpi .slt (ids i) 32000#32 = 1#1) :
    taken ids emb = gathered ids emb := by
  funext i
  unfold taken
  rw [select_apply]
  have hb : broadcastInDim S4096x1024 ![0] bcast_S4096_S4096x1024_0 (inRange ids) i = 1#1 := inRange_eq_one ids h _
  rw [hb]
  exact select_one _ _

end Cert.GatedMlp.Take

end
-- ==== Proof.PreDecode.lean ====
/-
  The precondition, read back at one token id.

  The precondition is a conjunction: every float input entry is finite, and every token id lies in [0, 32000), compared
  signed. Its last conjunct is the "all" of the entrywise conjunction of the two compares; read at one id it gives the
  two compares of that id.
-/
import proofs.«402073_j5025111736662_3_alg».proof.Pre_finite_inputs
import proofs.«402073_j5025111736662_3_alg».proof.Proof.Gen.Pre_finite_inputs
import Idealize.ShloMosaic.Lib.ReduceAll

noncomputable section

namespace Cert.GatedMlp.Pre

open Idealize.ShloMosaic Cert.Pre_finite_inputs

variable {F : FTy → Type} [FloatOps F]

/-- A rank-0 array has one index. -/
instance : Subsingleton S_.Idx := ⟨fun a b => funext fun d => d.elim0⟩

/-- Where the precondition holds, every token id is at least 0 and below 32000, signed. -/
theorem ids_in_range (a0 : IVec S2x2048 32) (a1 : FVec F S32000x1024 .f32) (a2 : FVec F S1024 .f32) (a3 : FVec F S8192x1024 .f32)
    (a4 : FVec F S8192 .f32) (a5 : FVec F S32000x4096 .f32) (a6 : FVec F S32000 .f32)
    (h : fn (F := F) a0 a1 a2 a3 a4 a5 a6 = fun _ => 1#1) (i : S2x2048.Idx) :
    IntOp.cmpi .sge (a0 i) 0#32 = 1#1 ∧ IntOp.cmpi .slt (a0 i) 32000#32 = 1#1 := by
  have e := congrFun h (fun d => d.elim0)
  dsimp only [fn, fn_part1, fn_part2] at e
  obtain ⟨-, e2⟩ := IntOp.andi_eq_one.1 e
  have e3 := Host.reduce_andi_all _ _ _ _ _ e2 i
  exact IntOp.andi_eq_one.1 e3

end Cert.GatedMlp.Pre

end
-- ==== Proof.Spec.lean ====
/-
  The arithmetic both programs compute, read one token row at a time over the extended reals.

  A token's embedding row x (1024 entries) is scaled by the inverse root of its mean square plus ε and, entry by entry,
  by the gain γ. A hidden unit is the scaled row's product with one weight row plus a bias. Hidden units q and 4096 + q
  are gated into h_q · σ(h_q) · h_{4096+q}, σ the logistic function. A logit is the gated row's product with one output
  weight row plus a bias. Sums run over the contraction index in its natural order; no law of the extended reals beyond
  the definitions is used anywhere, so infinities need no care.
-/
import Idealize.ShloMosaic.PureOps.Ideal
import Idealize.ShloMosaic.Lib.ValueIdx

noncomputable section

open scoped BigOperators

namespace Cert.GatedMlp

open Idealize.ShloMosaic

/-- A row times a weight row, plus a bias. -/
def affine {K : Nat} (x w : Fin K → EReal) (b : EReal) : EReal := (∑ k : Fin K, x k * w k) + b

/-- The inverse root of a 1024-entry row's mean square plus ε: the divisor is the float32 1024, ε the float32 nearest
    to 1e-6, each read as the exact value of its word. -/
def invRms (x : Fin 1024 → EReal) : EReal :=
  Ideal.rsqrt (Ideal.div (∑ k : Fin 1024, x k * x k) (Ideal.ofBits .f32 0x44800000#32) + Ideal.ofBits .f32 0x358637BD#32)

/-- The normalised row: x · invRms(x) · γ, entry by entry. -/
def normed (x γ : Fin 1024 → EReal) (k : Fin 1024) : EReal := x k * invRms x * γ k

/-- Hidden unit j of a token row. -/
def hidden (x γ : Fin 1024 → EReal) (W1 : Fin 8192 → Fin 1024 → EReal) (b1 : Fin 8192 → EReal) (j : Fin 8192) : EReal :=
  affine (normed x γ) (W1 j) (b1 j)

/-- Hidden unit q, in the first half. -/
def lo (q : Fin 4096) : Fin 8192 := ⟨q.val, by have := q.isLt; omega⟩
/-- Hidden unit 4096 + q, in the second half. -/
def hi (q : Fin 4096) : Fin 8192 := ⟨4096 + q.val, by have := q.isLt; omega⟩

/-- Gated unit q of a token row: h_q · σ(h_q) · h_{4096+q}. -/
def gated (x γ : Fin 1024 → EReal) (W1 : Fin 8192 → Fin 1024 → EReal) (b1 : Fin 8192 → EReal) (q : Fin 4096) : EReal :=
  hidden x γ W1 b1 (lo q) * Ideal.logistic (hidden x γ W1 b1 (lo q)) * hidden x γ W1 b1 (hi q)

/-- The float32 word of 1.0 is the real 1. -/
theorem ofBits_one_f32 : Ideal.ofBits .f32 0x3F800000#32 = 1 := by
  simp [Ideal.ofBits, Ideal.ieee, -EReal.coe_mul]
  norm_num

end Cert.GatedMlp

end
-- ==== Proof.RefIsSpec.lean ====
/-
  The reference program, read one logit at a time, is the specification.

  Every stage of the reference is read at an index through the imported reading lemmas; the layout operations
  (broadcasts, transposes, slices) only move the index, and each moved index is identified with the index built from its
  coordinates. The token's row is the gathered embedding row, which is carried along as it stands and never opened.
  The reference sums and multiplies in the specification's order, so beyond the two constants (the word of 0.0 that starts
  the mean square's sum is 0, the word of 1.0 in the logistic function is 1) no law of the extended reals is used.
-/
import proofs.«402073_j5025111736662_3_alg».proof.Proof.Gen.ReferenceIdeal.Read
import proofs.«402073_j5025111736662_3_alg».proof.Proof.Spec

noncomputable section

open scoped BigOperators

namespace Cert.GatedMlp.Ref

open Idealize.ShloMosaic Idealize.ShloMosaic.ValueIdx Cert.ReferenceIdeal Cert.ReferenceIdeal.Read

/-! ## The moved indices, by coordinates -/

private theorem idx9_ix (r : Fin 4096) (k : Fin 1024) : idx_main_v9 (ix1 r) k = ix2 r k := by
  funext a; match a with | ⟨0, _⟩ => rfl | ⟨1, _⟩ => rfl
private theorem idx10_ix (r : Fin 4096) (z : Fin 1) : idx_main_v10 (ix2 r z) = ix1 r := by
  funext a; match a with | ⟨0, _⟩ => rfl
private theorem idx16_ix (r : Fin 4096) (k : Fin 1024) : idx_main_v16 (ix2 r k) = ix2 r (0 : Fin 1) := by
  funext a; match a with | ⟨0, _⟩ => rfl | ⟨1, _⟩ => rfl
private theorem idx19_ix (r : Fin 4096) (k : Fin 1024) : idx_main_v18 (idx_main_v19 (ix2 r k)) = ix1 k := by
  funext a; match a with | ⟨0, _⟩ => rfl
private theorem lidx22_ix (r : Fin 4096) (j : Fin 8192) (k : Fin 1024) : lidx_main_v22 (ix2 r j) k = ix2 r k := by
  funext a; match a with | ⟨0, _⟩ => rfl | ⟨1, _⟩ => rfl
private theorem ridx22_ix (r : Fin 4096) (j : Fin 8192) (k : Fin 1024) :
    idx_main_v21 (ridx_main_v22 (ix2 r j) k) = ix2 j k := by
  funext a; match a with | ⟨0, _⟩ => rfl | ⟨1, _⟩ => rfl
private theorem idx24_ix (r : Fin 4096) (j : Fin 8192) : idx_main_v23 (idx_main_v24 (ix2 r j)) = ix1 j := by
  funext a; match a with | ⟨0, _⟩ => rfl
private theorem idx26_ix (r : Fin 4096) (q : Fin 4096) : idx_main_v26 (ix2 r q) = ix2 r (lo q) := by
  funext a; match a with | ⟨0, _⟩ => rfl | ⟨1, _⟩ => rfl
private theorem idx27_ix (r : Fin 4096) (q : Fin 4096) : idx_main_v27 (ix2 r q) = ix2 r (hi q) := by
  funext a; match a with | ⟨0, _⟩ => rfl | ⟨1, _⟩ => rfl
private theorem lidx31_ix (r : Fin 4096) (v : Fin 32000) (k : Fin 4096) : lidx_main_v31 (ix2 r v) k = ix2 r k := by
  funext a; match a with | ⟨0, _⟩ => rfl | ⟨1, _⟩ => rfl
private theorem ridx31_ix (r : Fin 4096) (v : Fin 32000) (k : Fin 4096) :
    idx_main_v30 (ridx_main_v31 (ix2 r v) k) = ix2 v k := by
  funext a; match a with | ⟨0, _⟩ => rfl | ⟨1, _⟩ => rfl
private theorem idx33_ix (r : Fin 4096) (v : Fin 32000) : idx_main_v32 (idx_main_v33 (ix2 r v)) = ix1 v := by
  funext a; match a with | ⟨0, _⟩ => rfl

/-! ## The stages -/

/-- The sum of squares of token r's row: the sum starts from the word of 0.0, which is 0. -/
theorem ref_sumsq (x0 : (⟨S2x2048, .i32⟩ : BufTy).Contents (Elt Ideal)) (x1 : (⟨S32000x1024, .f32⟩ : BufTy).Contents (Elt Ideal)) (r : Fin 4096) :
    val_main_v9 (F := Ideal) x0 x1 (ix1 r)
      = ∑ k : Fin 1024, val_main_v7 (F := Ideal) x0 x1 (ix2 r k) * val_main_v7 (F := Ideal) x0 x1 (ix2 r k) := by
  rw [val_main_v9_apply, val_main_cst_apply, Ideal.ofBits_def, Ideal.ofBits_zero_f32, zero_add]
  refine Finset.sum_congr rfl fun k _ => ?_
  rw [idx9_ix, val_main_v8_apply, Ideal.mulf_def]

/-- The inverse root of the mean square plus ε of token r's row. -/
theorem ref_invRms (x0 : (⟨S2x2048, .i32⟩ : BufTy).Contents (Elt Ideal)) (x1 : (⟨S32000x1024, .f32⟩ : BufTy).Contents (Elt Ideal)) (r : Fin 4096) (z : Fin 1) :
    val_main_v15 (F := Ideal) x0 x1 (ix2 r z) = invRms (fun k => val_main_v7 (F := Ideal) x0 x1 (ix2 r k)) := by
  rw [val_main_v15_apply, Ideal.hostUnary_rsqrt_def, val_main_v14_apply, Ideal.addf_def, val_main_v12_apply,
    Ideal.hostDivf_def, val_main_v10_apply, idx10_ix, ref_sumsq, val_main_v11_apply, val_main_cst_1_apply,
    val_main_v13_apply, val_main_cst_2_apply, Ideal.ofBits_def, Ideal.ofBits_def]
  rfl

/-- Entry k of token r's normalised row. -/
theorem ref_normed (x0 : (⟨S2x2048, .i32⟩ : BufTy).Contents (Elt Ideal)) (x1 : (⟨S32000x1024, .f32⟩ : BufTy).Contents (Elt Ideal)) (x2 : (⟨S1024, .f32⟩ : BufTy).Contents (Elt Ideal)) (r : Fin 4096) (k : Fin 1024) :
    val_main_v20 (F := Ideal) x0 x1 x2 (ix2 r k) = normed (fun k => val_main_v7 (F := Ideal) x0 x1 (ix2 r k)) (fun k => x2 (ix1 k)) k := by
  rw [val_main_v20_apply, Ideal.mulf_def, val_main_v17_apply, Ideal.mulf_def, val_main_v16_apply, idx16_ix, ref_invRms,
    val_main_v19_apply, val_main_v18_apply, idx19_ix]
  rfl

/-- Hidden unit j of token r: the contraction runs over the row's entries in their order. -/
theorem ref_hidden (x0 : (⟨S2x2048, .i32⟩ : BufTy).Contents (Elt Ideal)) (x1 : (⟨S32000x1024, .f32⟩ : BufTy).Contents (Elt Ideal)) (x2 : (⟨S1024, .f32⟩ : BufTy).Contents (Elt Ideal)) (x3 : (⟨S8192x1024, .f32⟩ : BufTy).Contents (Elt Ideal)) (x4 : (⟨S8192, .f32⟩ : BufTy).Contents (Elt Ideal)) (r : Fin 4096) (j : Fin 8192) :
    val_main_v25 (F := Ideal) x0 x1 x2 x3 x4 (ix2 r j) = hidden (fun k => val_main_v7 (F := Ideal) x0 x1 (ix2 r k)) (fun k => x2 (ix1 k)) (fun j k => x3 (ix2 j k)) (fun j => x4 (ix1 j)) j := by
  rw [val_main_v25_apply, Ideal.addf_def, val_main_v22_apply, val_main_v24_apply, val_main_v23_apply, idx24_ix]
  unfold hidden affine
  refine congrArg (· + x4 (ix1 j)) (Finset.sum_congr rfl fun k _ => ?_)
  rw [lidx22_ix, ref_normed, val_main_v21_apply, ridx22_ix]

/-- Gated unit q of token r. The reference writes the logistic function as 1.0 / (1.0 + exp (-h)), the specification as
    its definition 1 / (1 + exp (-h)): the word of 1.0 is 1. -/
theorem ref_gated (x0 : (⟨S2x2048, .i32⟩ : BufTy).Contents (Elt Ideal)) (x1 : (⟨S32000x1024, .f32⟩ : BufTy).Contents (Elt Ideal)) (x2 : (⟨S1024, .f32⟩ : BufTy).Contents (Elt Ideal)) (x3 : (⟨S8192x1024, .f32⟩ : BufTy).Contents (Elt Ideal)) (x4 : (⟨S8192, .f32⟩ : BufTy).Contents (Elt Ideal)) (r : Fin 4096) (q : Fin 4096) :
    val_main_v29 (F := Ideal) x0 x1 x2 x3 x4 (ix2 r q) = gated (fun k => val_main_v7 (F := Ideal) x0 x1 (ix2 r k)) (fun k => x2 (ix1 k)) (fun j k => x3 (ix2 j k)) (fun j => x4 (ix1 j)) q := by
  rw [val_main_v29_apply, Ideal.mulf_def, val_main_v28_apply, Ideal.mulf_def, val_main_v27_apply, idx27_ix, ref_hidden,
    val_main_call0_v5_apply, Ideal.hostDivf_def, val_main_call0_v4_apply, val_main_call0_cst_0_apply, Ideal.ofBits_def,
    val_main_call0_v3_apply, Ideal.addf_def, val_main_call0_v2_apply, val_main_call0_cst_apply, Ideal.ofBits_def,
    val_main_call0_v1_apply, Ideal.hostUnary_exp_def, val_main_call0_v0_apply, Ideal.hostNegf_def, Ideal.negf_def,
    val_main_v26_apply, idx26_ix, ref_hidden, ofBits_one_f32]
  rfl

/-- The reference's logit at token r, vocabulary entry v, is the specification's, with the token's row the gathered
    embedding row. -/
theorem ref_logit (x0 : (⟨S2x2048, .i32⟩ : BufTy).Contents (Elt Ideal)) (x1 : (⟨S32000x1024, .f32⟩ : BufTy).Contents (Elt Ideal)) (x2 : (⟨S1024, .f32⟩ : BufTy).Contents (Elt Ideal)) (x3 : (⟨S8192x1024, .f32⟩ : BufTy).Contents (Elt Ideal)) (x4 : (⟨S8192, .f32⟩ : BufTy).Contents (Elt Ideal)) (x5 : (⟨S32000x4096, .f32⟩ : BufTy).Contents (Elt Ideal)) (x6 : (⟨S32000, .f32⟩ : BufTy).Contents (Elt Ideal)) (r : Fin 4096) (v : Fin 32000) :
    val_main_v34 (F := Ideal) x0 x1 x2 x3 x4 x5 x6 (ix2 r v)
      = affine (gated (fun k => val_main_v7 (F := Ideal) x0 x1 (ix2 r k)) (fun k => x2 (ix1 k)) (fun j k => x3 (ix2 j k)) (fun j => x4 (ix1 j)))
          (fun k => x5 (ix2 v k)) (x6 (ix1 v)) := by
  rw [val_main_v34_apply, Ideal.addf_def, val_main_v31_apply, val_main_v33_apply, val_main_v32_apply, idx33_ix]
  unfold affine
  refine congrArg (· + x6 (ix1 v)) (Finset.sum_congr rfl fun k _ => ?_)
  rw [lidx31_ix, ref_gated, val_main_v30_apply, ridx31_ix]

end Cert.GatedMlp.Ref

end
-- ==== Proof.Fc1Block.lean ====
/-
  Entry (p, q) of the block the first kernel stores is the specification's gated unit q of the block's row p.

  The kernel's value is one pure term of its four loads. Each layout operation in it (a cast that adds a unit axis, a
  broadcast along an axis, a slice of the columns) reads one entry of its operand; each arithmetic operation acts
  entry by entry; the row reduction and the product are sums over the 1024 contraction positions in their natural
  order. Reading the term at (p, q) from the outside in therefore meets the specification's terms one for one, with
  the same order of factors and of summation, so no law of the extended reals is needed.
-/
import proofs.«402073_j5025111736662_3_alg».proof.Proof.Gen.KernelIdeal.Skeleton
import proofs.«402073_j5025111736662_3_alg».proof.Proof.Spec
import Idealize.ShloMosaic.Lib.ValueIdx
import Idealize.ShloMosaic.Lib.ValueIdxCoords
import Idealize.ShloMosaic.Lib.Pipeline.Value
import Idealize.ShloMosaic.PureOps.Ideal.Laws

noncomputable section

open scoped BigOperators

namespace Cert.GatedMlp.Fc1

open Idealize.ShloMosaic Idealize.ShloMosaic.ValueIdx Cert.KernelIdeal Cert.KernelIdeal.Gen

/-! ## Layout operations of the block read at an entry -/

section Layout
variable {α : Type}

/-- A column of 256 entries viewed as a 256 × 1 block: entry (p, 0) is entry p. -/
theorem col_apply (w : S256.Idx → α) (h : S256.ShapeCasts S256x1) (p : Fin 256) (z : Fin 1) :
    shapeCast S256x1 w h (ix2 p z) = w (ix1 p) :=
  shapeCast_apply w h (ix2 p z) (ix1 p) (by
    have hz : z.val = 0 := by have := z.isLt; omega
    simp [Shape.rowMajor_val_one, Shape.rowMajor_val_two, hz])

/-- The gain's 1024 entries viewed as a 1 × 1024 block: entry (0, k) is entry k. -/
theorem gainRow_apply (g : S1024.Idx → α) (h : S1024.ShapeCasts S1x1024) (z : Fin 1) (k : Fin 1024) :
    shapeCast S1x1024 g h (ix2 z k) = g (ix1 k) :=
  shapeCast_apply g h (ix2 z k) (ix1 k) (by
    have hz : z.val = 0 := by have := z.isLt; omega
    simp [Shape.rowMajor_val_one, Shape.rowMajor_val_two, hz])

/-- The bias's 8192 entries viewed as a 1 × 8192 block: entry (0, j) is entry j. -/
theorem biasRow_apply (b : S8192.Idx → α) (h : S8192.ShapeCasts S1x8192) (z : Fin 1) (j : Fin 8192) :
    shapeCast S1x8192 b h (ix2 z j) = b (ix1 j) :=
  shapeCast_apply b h (ix2 z j) (ix1 j) (by
    have hz : z.val = 0 := by have := z.isLt; omega
    simp [Shape.rowMajor_val_one, Shape.rowMajor_val_two, hz])

/-- A 256 × 1 column spread along the 1024 columns: entry (p, k) is the column's entry (p, 0). -/
theorem spreadCol_apply (w : S256x1.Idx → α) (h : S256x1.Broadcasts S256x1024) (p : Fin 256) (k : Fin 1024) :
    broadcastTo S256x1024 w h (ix2 p k) = w (ix2 p 0) :=
  broadcastTo_apply w h (ix2 p k) (ix2 p 0) (fun a => match a with
    | ⟨0, _⟩ => rfl
    | ⟨1, _⟩ => rfl)

/-- A 1 × 1024 row spread along the 256 rows: entry (p, k) is the row's entry (0, k). -/
theorem spreadRow_apply (w : S1x1024.Idx → α) (h : S1x1024.Broadcasts S256x1024) (p : Fin 256) (k : Fin 1024) :
    broadcastTo S256x1024 w h (ix2 p k) = w (ix2 0 k) :=
  broadcastTo_apply w h (ix2 p k) (ix2 0 k) (fun a => match a with
    | ⟨0, _⟩ => rfl
    | ⟨1, _⟩ => rfl)

/-- A 1 × 8192 row spread along the 256 rows: entry (p, j) is the row's entry (0, j). -/
theorem spreadBias_apply (w : S1x8192.Idx → α) (h : S1x8192.Broadcasts S256x8192) (p : Fin 256) (j : Fin 8192) :
    broadcastTo S256x8192 w h (ix2 p j) = w (ix2 0 j) :=
  broadcastTo_apply w h (ix2 p j) (ix2 0 j) (fun a => match a with
    | ⟨0, _⟩ => rfl
    | ⟨1, _⟩ => rfl)

/-- The first 4096 columns of a 256 × 8192 block: entry (p, q) is the block's entry (p, q). -/
theorem sliceLo_apply (v : S256x8192.Idx → α) (h : S256x8192.Slices ![0, 0] S256x4096) (p : Fin 256) (q : Fin 4096) :
    extractStridedSlice S256x4096 ![0, 0] v h (ix2 p q) = v (ix2 p (lo q)) :=
  extractStridedSlice_apply ![0, 0] v h (ix2 p q) (ix2 p (lo q)) (fun a => match a with
    | ⟨0, _⟩ => by show p.val = 0 + p.val; omega
    | ⟨1, _⟩ => by show q.val = 0 + q.val; omega)

/-- The last 4096 columns of a 256 × 8192 block: entry (p, q) is the block's entry (p, 4096 + q). -/
theorem sliceHi_apply (v : S256x8192.Idx → α) (h : S256x8192.Slices ![0, 4096] S256x4096) (p : Fin 256) (q : Fin 4096) :
    extractStridedSlice S256x4096 ![0, 4096] v h (ix2 p q) = v (ix2 p (hi q)) :=
  extractStridedSlice_apply ![0, 4096] v h (ix2 p q) (ix2 p (hi q)) (fun a => match a with
    | ⟨0, _⟩ => by show p.val = 0 + p.val; omega
    | ⟨1, _⟩ => by show 4096 + q.val = 4096 + q.val; rfl)

end Layout

/-! ## Two entrywise operations read at an entry -/

section Pointwise
variable {s : Shape} {φ : FTy}

/-- An inverse square root at an entry is the inverse square root of the entry. -/
theorem rsqrt_apply (a : FVec Ideal s φ) (i : s.Idx) : rsqrt a i = Ideal.rsqrt (a i) := rfl
/-- A logistic at an entry is the logistic of the entry. -/
theorem logistic_apply (a : FVec Ideal s φ) (i : s.Idx) : logistic a i = Ideal.logistic (a i) := rfl

end Pointwise

/-! ## The two sums -/

/-- The sum of squares along a row: the sum-reduction over the columns, read at row p, is the sum over k of the row's
    entry k times itself. -/
theorem rowSumSq_apply (v : FVec Ideal S256x1024 .f32) (h : S256x1024.Reduces [1] S256) (p : Fin 256) :
    FloatOps.reduceAdd (F := Ideal) [1] h (mulf v v) (ix1 p) = ∑ k : Fin 1024, v (ix2 p k) * v (ix2 p k) := by
  refine (Ideal.reduceAdd_single h (mulf v v) (ix1 p)).trans ?_
  refine Finset.sum_congr rfl fun k _ => ?_
  -- the reduced index p with the column k put back is the entry (p, k)
  have e : h.lift (ix1 p) k = ix2 p k := funext fun a => Fin.ext (match a with
    | ⟨0, _⟩ => rfl
    | ⟨1, _⟩ => rfl)
  rw [e]
  rfl

/-- The dot record's operand indices at output entry (p, j) and contraction position k: (p, k) on the left … -/
theorem lhs_0 (i : S256x8192.Idx) (c : dot_S256x1024_S8192x1024_S256x8192_1_1_0_0_n_n.contr.Idx) :
    (dot_S256x1024_S8192x1024_S256x8192_1_1_0_0_n_n.lhsIdx i c 0).val = (i 0).val := by
  unfold DotDims.lhsIdx
  rw [dif_neg (show ¬(0 : Fin S256x1024.rank) ∈ dot_S256x1024_S8192x1024_S256x8192_1_1_0_0_n_n.lhsBatch by decide),
    dif_pos (show (0 : Fin S256x1024.rank) ∈ dot_S256x1024_S8192x1024_S256x8192_1_1_0_0_n_n.lhsNonContracting by decide)]
  rfl
theorem lhs_1 (i : S256x8192.Idx) (c : dot_S256x1024_S8192x1024_S256x8192_1_1_0_0_n_n.contr.Idx) :
    (dot_S256x1024_S8192x1024_S256x8192_1_1_0_0_n_n.lhsIdx i c 1).val = (c ⟨0, by decide⟩).val :=
  dot_S256x1024_S8192x1024_S256x8192_1_1_0_0_n_n.lhsIdx_val_of_single rfl i c
/-- … and (j, k) on the right: both operands contract their second axis. -/
theorem rhs_0 (i : S256x8192.Idx) (c : dot_S256x1024_S8192x1024_S256x8192_1_1_0_0_n_n.contr.Idx) :
    (dot_S256x1024_S8192x1024_S256x8192_1_1_0_0_n_n.rhsIdx i c 0).val = (i 1).val := by
  unfold DotDims.rhsIdx
  rw [dif_neg (show ¬(0 : Fin S8192x1024.rank) ∈ dot_S256x1024_S8192x1024_S256x8192_1_1_0_0_n_n.rhsBatch by decide),
    dif_pos (show (0 : Fin S8192x1024.rank) ∈ dot_S256x1024_S8192x1024_S256x8192_1_1_0_0_n_n.rhsNonContracting by decide)]
  rfl
theorem rhs_1 (i : S256x8192.Idx) (c : dot_S256x1024_S8192x1024_S256x8192_1_1_0_0_n_n.contr.Idx) :
    (dot_S256x1024_S8192x1024_S256x8192_1_1_0_0_n_n.rhsIdx i c 1).val = (c ⟨0, by decide⟩).val :=
  dot_S256x1024_S8192x1024_S256x8192_1_1_0_0_n_n.rhsIdx_val_of_single rfl i c

/-- The product into the zero accumulator, read at (p, j): the sum over k of the left block's entry (p, k) times the
    right block's entry (j, k). -/
theorem prod_apply (a : FVec Ideal S256x1024 .bf16) (b : FVec Ideal S8192x1024 .bf16) (p : Fin 256) (j : Fin 8192) :
    matmul dot_S256x1024_S8192x1024_S256x8192_1_1_0_0_n_n none a b (constant (F := Ideal) S256x8192 .f32 0x00000000#32) (ix2 p j)
      = ∑ k : Fin 1024, a (ix2 p k) * b (ix2 j k) := by
  simp only [matmul]
  rw [Ideal.matmul_constant_zero_apply,
    ← Equiv.sum_comp (contrEquiv1 dot_S256x1024_S8192x1024_S256x8192_1_1_0_0_n_n 1024 rfl rfl).symm]
  refine Finset.sum_congr rfl fun k _ => ?_
  have hk := contrEquiv1_symm_val dot_S256x1024_S8192x1024_S256x8192_1_1_0_0_n_n 1024 rfl rfl k
  have el : dot_S256x1024_S8192x1024_S256x8192_1_1_0_0_n_n.lhsIdx (ix2 p j)
      ((contrEquiv1 dot_S256x1024_S8192x1024_S256x8192_1_1_0_0_n_n 1024 rfl rfl).symm k) = ix2 p k :=
    funext fun x => Fin.ext (by
      match x with
      | ⟨0, _⟩ => exact lhs_0 _ _
      | ⟨1, _⟩ => exact (lhs_1 _ _).trans hk)
  have er : dot_S256x1024_S8192x1024_S256x8192_1_1_0_0_n_n.rhsIdx (ix2 p j)
      ((contrEquiv1 dot_S256x1024_S8192x1024_S256x8192_1_1_0_0_n_n 1024 rfl rfl).symm k) = ix2 j k :=
    funext fun x => Fin.ext (by
      match x with
      | ⟨0, _⟩ => exact rhs_0 _ _
      | ⟨1, _⟩ => exact (rhs_1 _ _).trans hk)
  rw [el, er]

/-! ## The stored entry -/

/-- Entry (p, q) of the block the first kernel stores is the gated unit q of the block's row p.

    Read from the outside in: the stored entry is h_q · σ(h_q) · h_{4096+q}, the two halves being column slices of the
    hidden block; a hidden entry (p, j) is the product's entry plus the bias's entry j, the product's entry being the
    sum over k of the normalised row's entry k times weight row j's entry k; the normalised entry (p, k) is the token
    row's entry times the row's scale times the gain's entry k; and the scale is the inverse root of the row's sum of
    squares divided by 1024 plus ε. Each of these is the specification's term of the same name, with the same order of
    factors and of summation, so once every operation is read at its entry the two sides are the same expression. -/
theorem fc1_block_apply (x0 : Vec Ideal S256x1024 .f32) (x1 : Vec Ideal S1024 .f32) (x2 : Vec Ideal S8192x1024 .bf16)
    (x3 : Vec Ideal S8192 .f32) (p : Fin 256) (q : Fin 4096) :
    k0_pay1 (F := Ideal) x0 x1 x2 x3 (ix2 p q)
      = gated (fun k => x0 (ix2 p k)) (fun k => x1 (ix1 k)) (fun j k => x2 (ix2 j k)) (fun j => x3 (ix1 j)) q := by
  unfold k0_pay1
  -- every layout and entrywise operation read at its entry; the sum-reduction opened to the sum it is
  simp only [shapeCast_self, truncf_apply, mulf_apply, addf_apply, divf_apply, rsqrt_apply, logistic_apply,
    sliceLo_apply, sliceHi_apply, prod_apply, spreadBias_apply, biasRow_apply, spreadCol_apply, spreadRow_apply,
    gainRow_apply, col_apply, broadcast_apply, Ideal.ofBits_def, multiReduction]
  -- the row's sum of squares, the one sum left under the inverse root
  rw [rowSumSq_apply x0 reduces_S256x1024_S256 p]
  rfl

end Cert.GatedMlp.Fc1

end
-- ==== Proof.Fc1Region.lean ====
/-
  The first region's output array after the run, from its blocks.

  The region walks sixteen points. At point t the token rows' window holds rows 256·t … 256·t + 255 of the [4096, 1024]
  array of token rows, the gain, the weights and the bias windows hold their whole arrays, and the body writes the gated
  units of those 256 rows into rows 256·t … 256·t + 255 of the [4096, 4096] result. A gated unit of a row depends on that
  row alone, so the block written at point t is block t of ONE array, the gated units of every token row; the sixteen
  blocks tile the result, so after the run the result is that array.
-/
import proofs.«402073_j5025111736662_3_alg».proof.Proof.Gen.KernelIdeal.Frame
import proofs.«402073_j5025111736662_3_alg».proof.Proof.Fc1Block
import proofs.«402073_j5025111736662_3_alg».proof.Proof.Spec
import Idealize.ShloMosaic.Lib.Pipeline.Value

noncomputable section

namespace Cert.GatedMlp.Fc1Region

open Idealize.ShloMosaic Idealize.ShloMosaic.TcCoe Idealize.SL.Sem Idealize.ShloMosaic.ValueIdx Cert.KernelIdeal Cert.KernelIdeal.Gen
open Idealize.ShloMosaic.Pipeline (Dat)

variable (V : (c : Dev nD) → (b : Ref sig .tc) → Buf (Elt Ideal) ((c : Thread nD τ).loc b))

/-- The gated units of every token row: entry (r, q) is gated unit q of row r of the token rows' array, under the gain,
    the weights and the bias as the region finds them. -/
def gatedRows (c : Dev nD) : Buf (Elt Ideal) ((cfg0.win 4).arr.view.loc (c.tc : Thread nD τ)) :=
  fun i => gated (fun k => V c main_v1 (ix2 ⟨(i 0).val, (i 0).isLt⟩ k)) (fun k => V c main_arg2 (ix1 k))
    (fun j k => V c main_v2 (ix2 j k)) (fun j => V c main_arg4 (ix1 j)) ⟨(i 1).val, (i 1).isLt⟩

theorem gatedRows_apply (c : Dev nD) (r q : Fin 4096) :
    gatedRows V c (ix2 r q) = gated (fun k => V c main_v1 (ix2 r k)) (fun k => V c main_arg2 (ix1 k))
      (fun j k => V c main_v2 (ix2 j k)) (fun j => V c main_arg4 (ix1 j)) q := rfl

/-- The zero offsets of a whole-block access, however they are spelt. -/
theorem zeros2 : (![0, 0] : Fin 2 → Nat) = fun _ => 0 := funext fun a => by fin_cases a <;> rfl
theorem zeros1 : (![0] : Fin 1 → Nat) = fun _ => 0 := funext fun a => by fin_cases a; rfl

/-- Where the windows sit at point t: the token rows' block is the output's row block; the gain, the weights and the bias
    are whole arrays; the output's blocks are the sixteen row blocks. -/
theorem block_indices : ∀ t : Fin cfg0.N, win0_0.index t (0 : Fin 2) = win0_4.index t (0 : Fin 2)
    ∧ win0_0.index t (1 : Fin 2) = 0 ∧ win0_1.index t (0 : Fin 1) = 0 ∧ win0_2.index t (0 : Fin 2) = 0
    ∧ win0_2.index t (1 : Fin 2) = 0 ∧ win0_3.index t (0 : Fin 1) = 0 ∧ win0_4.index t (1 : Fin 2) = 0
    ∧ win0_4.index t (0 : Fin 2) ≤ 15 :=
  (by decide +kernel : ∀ t : Fin grid0.N, _)

/-- Every one of the sixteen row blocks is some point's. -/
theorem row_block_onto : ∀ q0 : Fin 16, ∃ t : Fin cfg0.N, win0_4.index t = ![q0.val, 0] :=
  (by decide +kernel : ∀ q0 : Fin 16, ∃ t : Fin grid0.N, win0_4.index t = ![q0.val, 0])

/-- The body's payload at an entry of its block, when the four blocks are read off whole-array functions: the gated unit
    of those functions. -/
theorem payload_apply (x0 : Vec Ideal S256x1024 .f32) (x1 : Vec Ideal S1024 .f32) (x2 : Vec Ideal S8192x1024 .bf16)
    (x3 : Vec Ideal S8192 .f32) (X γ : Fin 1024 → EReal) (W : Fin 8192 → Fin 1024 → EReal) (b : Fin 8192 → EReal)
    (j : S256x4096.Idx) (p : Fin 256) (q : Fin 4096) (hp : (j 0).val = p.val) (hq : (j 1).val = q.val)
    (h0 : ∀ k, x0 (ix2 p k) = X k) (h1 : ∀ k, x1 (ix1 k) = γ k) (h2 : ∀ n k, x2 (ix2 n k) = W n k)
    (h3 : ∀ n, x3 (ix1 n) = b n) :
    k0_pay1 (F := Ideal) x0 x1 x2 x3 j = gated X γ W b q := by
  have hj : j = ix2 p q := by
    funext a; match a with | ⟨0, _⟩ => exact Fin.ext hp | ⟨1, _⟩ => exact Fin.ext hq
  subst hj
  have e0 : (fun k => x0 (ix2 p k)) = X := funext h0
  have e1 : (fun k => x1 (ix1 k)) = γ := funext h1
  have e2 : (fun n k => x2 (ix2 n k)) = W := funext fun n => funext fun k => h2 n k
  have e3 : (fun n => x3 (ix1 n)) = b := funext h3
  rw [Fc1.fc1_block_apply, e0, e1, e2, e3]

/-- What point t writes back is block t of the gated units of every token row. -/
theorem flushed_eq (c : Dev nD) (t : Fin cfg0.N) :
    (dat0 V c).flushed 4 t = ((cfg0.win 4).blk t).view.read (Elt Ideal) (gatedRows V c) := by
  show (cfg0.win 4).cut (grid0.coords t) ((dat0 V c).after 4 t) = _
  rw [after0_4]
  unfold out0_4
  rw [View.canon_unit_zero zeros2]
  simp only [View.ld_unit_zero (S := S256x1024) zeros2, View.ld_unit_zero (S := S8192x1024) zeros2,
    View.ld_unit_zero (S := S1024) zeros1, View.ld_unit_zero (S := S8192) zeros1]
  obtain ⟨e00, e01, e10, e20, e21, e30, e41, e40⟩ := block_indices t
  funext j
  show k0_pay1 (F := Ideal) (iblk0 V c 0 t) (iblk0 V c 1 t) (iblk0 V c 2 t) (iblk0 V c 3 t) (j : S256x4096.Idx)
    = gatedRows V c (((cfg0.win 4).blk t).view.emb j)
  refine payload_apply (iblk0 V c 0 t) (iblk0 V c 1 t) (iblk0 V c 2 t) (iblk0 V c 3 t) _ _ _ _ j
    ⟨(j 0).val, (j 0).isLt⟩ _ rfl ?_ ?_ ?_ ?_ ?_
  · show (j 1).val = win0_4.index t (1 : Fin 2) * 4096 + 1 * (j 1).val
    omega
  · intro k
    show V c main_v1 _ = V c main_v1 _
    refine congrArg (V c main_v1) (funext fun a => Fin.ext ?_)
    match a with
    | ⟨0, _⟩ =>
      show win0_0.index t (0 : Fin 2) * 256 + 1 * (j 0).val = win0_4.index t (0 : Fin 2) * 256 + 1 * (j 0).val
      omega
    | ⟨1, _⟩ =>
      show win0_0.index t (1 : Fin 2) * 1024 + 1 * k.val = k.val
      omega
  · intro k
    show V c main_arg2 _ = V c main_arg2 _
    refine congrArg (V c main_arg2) (funext fun a => Fin.ext ?_)
    match a with
    | ⟨0, _⟩ =>
      show win0_1.index t (0 : Fin 1) * 1024 + 1 * k.val = k.val
      omega
  · intro n k
    show V c main_v2 _ = V c main_v2 _
    refine congrArg (V c main_v2) (funext fun a => Fin.ext ?_)
    match a with
    | ⟨0, _⟩ =>
      show win0_2.index t (0 : Fin 2) * 8192 + 1 * n.val = n.val
      omega
    | ⟨1, _⟩ =>
      show win0_2.index t (1 : Fin 2) * 1024 + 1 * k.val = k.val
      omega
  · intro n
    show V c main_arg4 _ = V c main_arg4 _
    refine congrArg (V c main_arg4) (funext fun a => Fin.ext ?_)
    match a with
    | ⟨0, _⟩ =>
      show win0_3.index t (0 : Fin 1) * 8192 + 1 * n.val = n.val
      omega

/-- An index of the result is in point t's block iff each coordinate is in the block's range on its axis. -/
theorem mem_row_block (t : Fin cfg0.N) (i : S4096x4096.Idx) :
    i ∈ ((cfg0.win 4).blk t).view.set ↔ ∀ a : Fin 2, win0_4.index t a * S256x4096.size a ≤ (i a).val
      ∧ (i a).val < win0_4.index t a * S256x4096.size a + S256x4096.size a := by
  show i ∈ ((View.whole main_v3).slice (win0_4.rect t)).set ↔ _
  rw [View.set_slice_whole, Rect.mem_set_unit]
  exact Iff.rfl

/-- The sixteen row blocks tile the result: row r is in the block of the point whose row block is r / 256, and every
    point writes its block back. -/
theorem covered (i : S4096x4096.Idx) :
    ∃ t : Fin cfg0.N, (cfg0.win 4).flush t = true ∧ i ∈ ((cfg0.win 4).blk t).view.set := by
  have hi0 : (i 0).val < 4096 := (i 0).isLt
  have hi1 : (i 1).val < 4096 := (i 1).isLt
  obtain ⟨t, ht⟩ := row_block_onto ⟨(i 0).val / 256, by omega⟩
  have q0 : win0_4.index t (0 : Fin 2) = (i 0).val / 256 := congrFun ht 0
  have q1 : win0_4.index t (1 : Fin 2) = 0 := congrFun ht 1
  refine ⟨t, flush0_4 t, ?_⟩
  rw [mem_row_block]
  intro a
  match a with
  | ⟨0, _⟩ =>
    show win0_4.index t (0 : Fin 2) * 256 ≤ (i 0).val ∧ (i 0).val < win0_4.index t (0 : Fin 2) * 256 + 256
    omega
  | ⟨1, _⟩ =>
    show win0_4.index t (1 : Fin 2) * 4096 ≤ (i 1).val ∧ (i 1).val < win0_4.index t (1 : Fin 2) * 4096 + 4096
    omega

/-- The result array after the run is the gated units of every token row. -/
theorem fc1_final (c : Dev nD) : (dat0 V c).arrAt 4 cfg0.N = gatedRows V c :=
  (dat0 V c).arrAt_eq_of_cover 4 (gatedRows V c) (fun t _ => flushed_eq V c t) covered

end Cert.GatedMlp.Fc1Region

end
-- ==== Proof.Fc2Block.lean ====
/-
  The second kernel's arithmetic read at one output entry.

  The kernel multiplies a 2048×4096 block of gated rows with a 256×4096 block of output weight rows, contracting the
  second axis of both, into a zero accumulator, and adds the 256 biases along the rows. Over the extended reals the
  narrowing of the weights is the identity, so entry (p, c) of the result is gated row p times weight row c plus
  bias c: the specification's `affine`.
-/
import proofs.«402073_j5025111736662_3_alg».proof.Proof.Gen.KernelIdeal.Skeleton
import proofs.«402073_j5025111736662_3_alg».proof.Proof.Spec
import Idealize.ShloMosaic.Lib.Pipeline.Value
import Idealize.ShloMosaic.Lib.ValueIdx
import Idealize.ShloMosaic.PureOps.Ideal.Laws

noncomputable section

open scoped BigOperators

namespace Cert.GatedMlp.Fc2

open Idealize.ShloMosaic Idealize.ShloMosaic.ValueIdx Cert.KernelIdeal Cert.KernelIdeal.Gen

/-! ## The product's operand indices, axis by axis

Output entry (r, c) at contraction position q reads the left operand at (r, q) and the right operand at (c, q): both
operands contract their second axis, and each one's first axis is an output axis. -/

theorem lhs_axis0 (i : S2048x256.Idx) (q : dot_S2048x4096_S256x4096_S2048x256_1_1_0_0_n_n.contr.Idx) :
    (dot_S2048x4096_S256x4096_S2048x256_1_1_0_0_n_n.lhsIdx i q 0).val = (i 0).val := by
  unfold DotDims.lhsIdx
  rw [dif_neg (show ¬(0 : Fin S2048x4096.rank) ∈ dot_S2048x4096_S256x4096_S2048x256_1_1_0_0_n_n.lhsBatch by decide), dif_pos (show (0 : Fin S2048x4096.rank) ∈ dot_S2048x4096_S256x4096_S2048x256_1_1_0_0_n_n.lhsNonContracting by decide)]
  rfl

theorem lhs_axis1 (i : S2048x256.Idx) (q : dot_S2048x4096_S256x4096_S2048x256_1_1_0_0_n_n.contr.Idx) :
    (dot_S2048x4096_S256x4096_S2048x256_1_1_0_0_n_n.lhsIdx i q 1).val = (q ⟨0, by decide⟩).val :=
  dot_S2048x4096_S256x4096_S2048x256_1_1_0_0_n_n.lhsIdx_val_of_single rfl i q

theorem rhs_axis0 (i : S2048x256.Idx) (q : dot_S2048x4096_S256x4096_S2048x256_1_1_0_0_n_n.contr.Idx) :
    (dot_S2048x4096_S256x4096_S2048x256_1_1_0_0_n_n.rhsIdx i q 0).val = (i 1).val := by
  unfold DotDims.rhsIdx
  rw [dif_neg (show ¬(0 : Fin S256x4096.rank) ∈ dot_S2048x4096_S256x4096_S2048x256_1_1_0_0_n_n.rhsBatch by decide), dif_pos (show (0 : Fin S256x4096.rank) ∈ dot_S2048x4096_S256x4096_S2048x256_1_1_0_0_n_n.rhsNonContracting by decide)]
  rfl

theorem rhs_axis1 (i : S2048x256.Idx) (q : dot_S2048x4096_S256x4096_S2048x256_1_1_0_0_n_n.contr.Idx) :
    (dot_S2048x4096_S256x4096_S2048x256_1_1_0_0_n_n.rhsIdx i q 1).val = (q ⟨0, by decide⟩).val :=
  dot_S2048x4096_S256x4096_S2048x256_1_1_0_0_n_n.rhsIdx_val_of_single rfl i q

/-! ## The product into the zero accumulator, read at an entry -/

/-- Entry (p, c) of the product of a 2048×4096 block with a 256×4096 block along their second axes, accumulated into
    zero, is the sum over k of the left block at (p, k) times the right block at (c, k). -/
theorem matmul_zero_apply (l : FVec Ideal S2048x4096 .bf16) (r : FVec Ideal S256x4096 .bf16) (p : Fin 2048) (c : Fin 256) :
    matmul dot_S2048x4096_S256x4096_S2048x256_1_1_0_0_n_n none l r (constant S2048x256 .f32 0x00000000#32) (ix2 p c)
      = ∑ k : Fin 4096, l (ix2 p k) * r (ix2 c k) := by
  simp only [matmul]
  rw [Ideal.matmul_constant_zero_apply, ← Equiv.sum_comp (contrEquiv1 dot_S2048x4096_S256x4096_S2048x256_1_1_0_0_n_n 4096 rfl rfl).symm]
  refine Finset.sum_congr rfl fun k _ => ?_
  have hk := contrEquiv1_symm_val dot_S2048x4096_S256x4096_S2048x256_1_1_0_0_n_n 4096 rfl rfl k
  have el : dot_S2048x4096_S256x4096_S2048x256_1_1_0_0_n_n.lhsIdx (ix2 p c) ((contrEquiv1 dot_S2048x4096_S256x4096_S2048x256_1_1_0_0_n_n 4096 rfl rfl).symm k) = ix2 p k := funext fun a => Fin.ext (by
    match a with
    | ⟨0, _⟩ => exact lhs_axis0 _ _
    | ⟨1, _⟩ => exact (lhs_axis1 _ _).trans hk)
  have er : dot_S2048x4096_S256x4096_S2048x256_1_1_0_0_n_n.rhsIdx (ix2 p c) ((contrEquiv1 dot_S2048x4096_S256x4096_S2048x256_1_1_0_0_n_n 4096 rfl rfl).symm k) = ix2 c k := funext fun a => Fin.ext (by
    match a with
    | ⟨0, _⟩ => exact rhs_axis0 _ _
    | ⟨1, _⟩ => exact (rhs_axis1 _ _).trans hk)
  rw [el, er]

/-! ## The bias along the rows -/

/-- The 256 biases cast to one row and broadcast over 2048 rows read, at (p, c), bias c. -/
theorem bias_apply (b : FVec Ideal S256 .f32) (p : Fin 2048) (c : Fin 256) :
    broadcastTo S2048x256 (shapeCast S1x256 b shapeCasts_S256_S1x256) broadcasts_S1x256_S2048x256 (ix2 p c) = b (ix1 c) := by
  refine (broadcastTo_apply _ broadcasts_S1x256_S2048x256 (ix2 p c) (ix2 (0 : Fin 1) c) (fun a => ?_)).trans ?_
  · match a with
    | ⟨0, _⟩ => rfl
    | ⟨1, _⟩ => rfl
  · exact shapeCast_apply b shapeCasts_S256_S1x256 (ix2 (0 : Fin 1) c) (ix1 c)
      (by rw [Shape.rowMajor_val_two, Shape.rowMajor_val_one]; show c.val = 0 * 256 + c.val; omega)

/-! ## The payload at an entry -/

/-- Entry (p, c) of the second kernel's stored block: gated row p times output weight row c, plus bias c. -/
theorem fc2_block_apply (y : Vec Ideal S2048x4096 .bf16) (w : Vec Ideal S256x4096 .f32) (b : Vec Ideal S256 .f32) (p : Fin 2048) (c : Fin 256) :
    k1_pay1 (F := Ideal) y w b (ix2 p c) = affine (fun k => y (ix2 p k)) (fun k => w (ix2 c k)) (b (ix1 c)) := by
  unfold k1_pay1 affine
  rw [shapeCast_self]
  refine (addf_apply _ _ (ix2 p c)).trans ?_
  rw [matmul_zero_apply, bias_apply]
  rfl

end Cert.GatedMlp.Fc2

end
-- ==== Proof.Fc2Region.lean ====
/-
  The logits array after the second region, from its blocks.

  The second region runs over a 2 × 125 grid. At grid point (a, b) it reads gated rows 2048·a … 2048·a + 2047 (all 4096
  columns), output weight rows 256·b … 256·b + 255 (all 4096 columns) and biases 256·b … 256·b + 255, and writes the
  2048 × 256 block of the [4096, 32000] logits array at block index (a, b). Entry (p, q) of the block a point writes is
  gated row p of its row block times weight row q of its weight block plus bias q, so it is entry (2048·a + p, 256·b + q)
  of ONE function of the region's entry contents: row r of the gated array times weight row v plus bias v. The 250 blocks
  tile the array, so after the region the array is that function.
-/
import proofs.«402073_j5025111736662_3_alg».proof.Proof.Gen.KernelIdeal.Frame
import proofs.«402073_j5025111736662_3_alg».proof.Proof.Fc2Block
import proofs.«402073_j5025111736662_3_alg».proof.Proof.Spec
import Idealize.ShloMosaic.Lib.Pipeline.Value
import Idealize.ShloMosaic.Lib.ValueIdx

noncomputable section

open scoped BigOperators

namespace Cert.GatedMlp.Fc2Region

open Idealize.ShloMosaic Idealize.ShloMosaic.TcCoe Idealize.SL.Sem Idealize.ShloMosaic.ValueIdx Cert.KernelIdeal Cert.KernelIdeal.Gen
open Idealize.ShloMosaic.Pipeline (Dat)

variable (V : (c : Dev nD) → (b : Ref sig .tc) → Buf (Elt Ideal) ((c : Thread nD τ).loc b))

/-- The logits as one function of the region's entry contents: entry (r, v) is row r of the gated array times output
    weight row v, plus bias v. -/
def logits (c : Dev nD) : Buf (Elt Ideal) ((cfg1.win 3).arr.view.loc (c : Thread nD τ)) :=
  fun (i : S4096x32000.Idx) => affine (fun k => V c main_v3 (ix2 ⟨(i 0).val, (i 0).isLt⟩ k)) (fun k => V c main_arg5 (ix2 ⟨(i 1).val, (i 1).isLt⟩ k)) (V c main_arg6 (ix1 ⟨(i 1).val, (i 1).isLt⟩))

/-- The logits at an entry named by its two coordinates. -/
theorem logits_apply (c : Dev nD) (r : Fin 4096) (v : Fin 32000) :
    logits V c (ix2 r v) = affine (fun k => V c main_v3 (ix2 r k)) (fun k => V c main_arg5 (ix2 v k)) (V c main_arg6 (ix1 v)) := rfl

/-- The zero offsets of a whole rank-2 block, and of a whole rank-1 block. -/
theorem hz : (![0, 0] : Fin 2 → Nat) = fun _ => 0 := funext fun a => by fin_cases a <;> rfl
theorem hz1 : (![0] : Fin 1 → Nat) = fun _ => 0 := funext fun a => by fin_cases a; rfl

/-- The block indices over the grid: the gated rows' block follows the output's row block, the weight rows' and the
    biases' blocks follow the output's column block, the contracted axis is never split, and the output's block indices
    stay inside 2 × 125. -/
theorem index_facts : ∀ t : Fin cfg1.N, win1_0.index t (0 : Fin 2) = win1_3.index t (0 : Fin 2) ∧ win1_0.index t (1 : Fin 2) = 0
    ∧ win1_1.index t (0 : Fin 2) = win1_3.index t (1 : Fin 2) ∧ win1_1.index t (1 : Fin 2) = 0
    ∧ win1_2.index t (0 : Fin 1) = win1_3.index t (1 : Fin 2)
    ∧ win1_3.index t (0 : Fin 2) ≤ 1 ∧ win1_3.index t (1 : Fin 2) ≤ 124 :=
  (by decide +kernel : ∀ t : Fin grid1.N, _)

/-- Every block of the 2 × 125 tiling is some grid point's. -/
theorem index_onto : ∀ (q0 : Fin 2) (q1 : Fin 125), ∃ t : Fin cfg1.N, win1_3.index t = ![q0.val, q1.val] :=
  (by decide +kernel : ∀ (q0 : Fin 2) (q1 : Fin 125), ∃ t : Fin grid1.N, win1_3.index t = ![q0.val, q1.val])

/-- Entry j of the block a point writes, from what the point's three input blocks hold on row j 0, on row j 1 and at
    j 1: the rows' product plus the bias. -/
theorem block_entry (y : Vec Ideal S2048x4096 .bf16) (w : Vec Ideal S256x4096 .f32) (b : Vec Ideal S256 .f32) (j : S2048x256.Idx)
    (Y Wt : Fin 4096 → EReal) (B : EReal)
    (hy : ∀ k : Fin 4096, y (ix2 ⟨(j 0).val, idx2_lt0 j⟩ k) = Y k)
    (hw : ∀ k : Fin 4096, w (ix2 ⟨(j 1).val, idx2_lt1 j⟩ k) = Wt k)
    (hb : b (ix1 ⟨(j 1).val, idx2_lt1 j⟩) = B) :
    k1_pay1 (F := Ideal) y w b j = affine Y Wt B := by
  obtain rfl : (fun k => y (ix2 ⟨(j 0).val, idx2_lt0 j⟩ k)) = Y := funext hy
  obtain rfl : (fun k => w (ix2 ⟨(j 1).val, idx2_lt1 j⟩ k)) = Wt := funext hw
  subst hb
  exact (congrArg (k1_pay1 (F := Ideal) y w b) (eq_ix2 j)).trans (Fc2.fc2_block_apply y w b (j 0) (j 1))

/-- What grid point t writes back is block t of the logits: each input block is read where the output block's rectangle
    says (a block's coordinate is its block index times the block size plus the coordinate inside the block). -/
theorem flushed_eq (c : Dev nD) (t : Fin cfg1.N) :
    (dat1 V c).flushed 3 t = ((cfg1.win 3).blk t).view.read (Elt Ideal) (logits V c) := by
  show (cfg1.win 3).cut (grid1.coords t) ((dat1 V c).after 3 t) = _
  rw [after1_3]
  unfold out1_3
  rw [View.canon_unit_zero hz]
  simp only [View.ld_unit_zero (S := S2048x4096) hz, View.ld_unit_zero (S := S256x4096) hz, View.ld_unit_zero (S := S256) hz1]
  funext j
  obtain ⟨e0, e1, e2, e3, e4, e5, e6⟩ := index_facts t
  show k1_pay1 (F := Ideal) (iblk1 V c 0 t) (iblk1 V c 1 t) (iblk1 V c 2 t) j = logits V c (((cfg1.win 3).blk t).view.emb j)
  unfold logits
  refine block_entry _ _ _ j _ _ _ (fun k => ?_) (fun k => ?_) ?_
  · unfold iblk1
    rw [View.read_apply]
    show V c main_v3 _ = V c main_v3 _
    refine congrArg (V c main_v3) (funext fun a => Fin.ext ?_)
    match a with
    | ⟨0, _⟩ => show win1_0.index t (0 : Fin 2) * 2048 + 1 * (j 0).val = win1_3.index t (0 : Fin 2) * 2048 + 1 * (j 0).val; omega
    | ⟨1, _⟩ => show win1_0.index t (1 : Fin 2) * 4096 + 1 * k.val = k.val; omega
  · unfold iblk1
    rw [View.read_apply]
    show V c main_arg5 _ = V c main_arg5 _
    refine congrArg (V c main_arg5) (funext fun a => Fin.ext ?_)
    match a with
    | ⟨0, _⟩ => show win1_1.index t (0 : Fin 2) * 256 + 1 * (j 1).val = win1_3.index t (1 : Fin 2) * 256 + 1 * (j 1).val; omega
    | ⟨1, _⟩ => show win1_1.index t (1 : Fin 2) * 4096 + 1 * k.val = k.val; omega
  · unfold iblk1
    rw [View.read_apply]
    show V c main_arg6 _ = V c main_arg6 _
    refine congrArg (V c main_arg6) (funext fun a => Fin.ext ?_)
    match a with
    | ⟨0, _⟩ => show win1_2.index t (0 : Fin 1) * 256 + 1 * (j 1).val = win1_3.index t (1 : Fin 2) * 256 + 1 * (j 1).val; omega

/-- An index of the array is in point t's block iff each coordinate is in the block's range on its axis. -/
theorem mem_blk (t : Fin cfg1.N) (i : S4096x32000.Idx) :
    i ∈ ((cfg1.win 3).blk t).view.set ↔ ∀ a : Fin 2, win1_3.index t a * S2048x256.size a ≤ (i a).val ∧ (i a).val < win1_3.index t a * S2048x256.size a + S2048x256.size a := by
  show i ∈ ((View.whole main_v4).slice (win1_3.rect t)).set ↔ _
  rw [View.set_slice_whole, Rect.mem_set_unit]
  exact Iff.rfl

/-- Every index (r, v) of the array is in the block of the point whose block index is (r / 2048, v / 256). -/
theorem cover (i : S4096x32000.Idx) : ∃ t : Fin cfg1.N, (cfg1.win 3).flush t = true ∧ i ∈ ((cfg1.win 3).blk t).view.set := by
  have hi0 : (i 0).val < 4096 := (i 0).isLt
  have hi1 : (i 1).val < 32000 := (i 1).isLt
  obtain ⟨t, ht⟩ := index_onto ⟨(i 0).val / 2048, by omega⟩ ⟨(i 1).val / 256, by omega⟩
  have q0 : win1_3.index t (0 : Fin 2) = (i 0).val / 2048 := congrFun ht 0
  have q1 : win1_3.index t (1 : Fin 2) = (i 1).val / 256 := congrFun ht 1
  refine ⟨t, flush1_3 t, ?_⟩
  rw [mem_blk]
  intro a
  match a with
  | ⟨0, _⟩ => show win1_3.index t (0 : Fin 2) * 2048 ≤ (i 0).val ∧ (i 0).val < win1_3.index t (0 : Fin 2) * 2048 + 2048; omega
  | ⟨1, _⟩ => show win1_3.index t (1 : Fin 2) * 256 ≤ (i 1).val ∧ (i 1).val < win1_3.index t (1 : Fin 2) * 256 + 256; omega

/-- The array after the region is the logits. -/
theorem fc2_final (c : Dev nD) : (dat1 V c).arrAt 3 cfg1.N = logits V c :=
  (dat1 V c).arrAt_eq_of_cover 3 (logits V c) (fun t _ => flushed_eq V c t) cover

end Cert.GatedMlp.Fc2Region

end
-- ==== Proof.Bridge.lean ====
/-
  Both programs' results as ONE function of the argument arrays.

  The kernel program's result buffer ends at the second region's output array, which is, entry (r, v), the logit of the
  first region's gated row r against output weight row v; the first region's output array is, entry (r, q), the gated
  unit q of token row r of what the lookup left; and where every token id lies in [0, 32000) the lookup left the gathered
  embedding rows. The reference's result is the same logit of the same gathered rows. Narrowing the first weight matrix to
  bfloat16 is the identity over the extended reals.
-/
import proofs.«402073_j5025111736662_3_alg».proof.Proof.RunValue
import proofs.«402073_j5025111736662_3_alg».proof.Proof.HostReads
import proofs.«402073_j5025111736662_3_alg».proof.Proof.TakeInRange
import proofs.«402073_j5025111736662_3_alg».proof.Proof.PreDecode
import proofs.«402073_j5025111736662_3_alg».proof.Proof.RefIsSpec
import proofs.«402073_j5025111736662_3_alg».proof.Proof.Spec
import proofs.«402073_j5025111736662_3_alg».proof.Proof.Fc1Region
import proofs.«402073_j5025111736662_3_alg».proof.Proof.Fc2Region

set_option maxRecDepth 16384

noncomputable section

namespace Cert.GatedMlp.Bridge

open Idealize.ShloMosaic Idealize.ShloMosaic.TcCoe Idealize.SL.Sem Idealize.ShloMosaic.ValueIdx
open Cert.KernelIdeal Cert.KernelIdeal.Gen

/-- The logits as a function of the seven argument arrays: entry (r, v) is the logit, against output weight row v and
    bias v, of the gated row of the embedding row the (in-range) token id r selects. -/
def logitsOf (ids : IVec S2x2048 32) (emb : FVec Ideal S32000x1024 .f32) (γ : FVec Ideal S1024 .f32)
    (W1 : FVec Ideal S8192x1024 .f32) (b1 : FVec Ideal S8192 .f32) (W2 : FVec Ideal S32000x4096 .f32)
    (b2 : FVec Ideal S32000 .f32) : S4096x32000.Idx → EReal := fun i =>
  affine (gated (fun k => Take.gathered (F := Ideal) ids emb (ix2 (⟨(i 0).val, (i 0).isLt⟩ : Fin 4096) k)) (fun k => γ (ix1 k))
      (fun j k => W1 (ix2 j k)) (fun j => b1 (ix1 j)))
    (fun k => W2 (ix2 (⟨(i 1).val, (i 1).isLt⟩ : Fin 32000) k)) (b2 (ix1 (⟨(i 1).val, (i 1).isLt⟩ : Fin 32000)))

variable (m : (ℓ : Loc nD τ sig) → Buf (Elt Ideal) ℓ) (ρ : Dev nD → PrngReg)

/-- Where every token id lies in [0, 32000), the kernel program's result buffer ends at the logits of its arguments. -/
theorem kernel_value (c : Dev nD)
    (hids : ∀ i : S2x2048.Idx, IntOp.cmpi .sge ((m ((c : Thread nD τ).loc main_arg0) : IVec S2x2048 32) i) 0#32 = 1#1
      ∧ IntOp.cmpi .slt ((m ((c : Thread nD τ).loc main_arg0) : IVec S2x2048 32) i) 32000#32 = 1#1) :
    W5 m ρ c (Proc.devRef .tc main_v4)
      = logitsOf (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) := by
  rw [Host.result_at_exit, Fc2Region.fc2_final]
  funext i
  obtain ⟨r, v, rfl⟩ : ∃ (r : Fin 4096) (v : Fin 32000), i = ix2 r v := ⟨i 0, i 1, eq_ix2 i⟩
  rw [Fc2Region.logits_apply, Host.weight2_at_entry, Host.bias2_at_entry, Host.gated_at_entry, Fc1Region.fc1_final]
  simp only [Fc1Region.gatedRows_apply]
  rw [Host.rows_at_entry, Host.gain_at_entry, Host.weight1_at_entry, Host.bias1_at_entry, Take.taken_eq_gathered _ _ hids]
  rfl

/-- The reference's result is the logits of its arguments. -/
theorem ref_value (m' : (ℓ : Loc Cert.ReferenceIdeal.nD Cert.ReferenceIdeal.τ Cert.ReferenceIdeal.sig) → Buf (Elt Ideal) ℓ)
    (c : Dev Cert.ReferenceIdeal.nD) :
    Cert.ReferenceIdeal.Value.res_main_v34 m' c
      = logitsOf (m' ((c.tc : Thread Cert.ReferenceIdeal.nD Cert.ReferenceIdeal.τ).loc Cert.ReferenceIdeal.main_arg0))
          (m' ((c.tc : Thread Cert.ReferenceIdeal.nD Cert.ReferenceIdeal.τ).loc Cert.ReferenceIdeal.main_arg1))
          (m' ((c.tc : Thread Cert.ReferenceIdeal.nD Cert.ReferenceIdeal.τ).loc Cert.ReferenceIdeal.main_arg2))
          (m' ((c.tc : Thread Cert.ReferenceIdeal.nD Cert.ReferenceIdeal.τ).loc Cert.ReferenceIdeal.main_arg3))
          (m' ((c.tc : Thread Cert.ReferenceIdeal.nD Cert.ReferenceIdeal.τ).loc Cert.ReferenceIdeal.main_arg4))
          (m' ((c.tc : Thread Cert.ReferenceIdeal.nD Cert.ReferenceIdeal.τ).loc Cert.ReferenceIdeal.main_arg5))
          (m' ((c.tc : Thread Cert.ReferenceIdeal.nD Cert.ReferenceIdeal.τ).loc Cert.ReferenceIdeal.main_arg6)) := by
  rw [Cert.ReferenceIdeal.Read.val_main_v34_eq]
  funext i
  obtain ⟨r, v, rfl⟩ : ∃ (r : Fin 4096) (v : Fin 32000), i = ix2 r v := ⟨i 0, i 1, eq_ix2 i⟩
  rw [Ref.ref_logit]
  rfl

end Cert.GatedMlp.Bridge

end
-- ==== Proof.lean ====
/-
  The certificate's claim: a token-embedding lookup, a root-mean-square normalisation, a gated two-layer perceptron and an
  output projection, computed by two tiled kernels over bfloat16 operands, against the same network written with whole
  matrix products.

  Over the extended reals a change of float format is the identity and every sum is exact, so both programs compute, for
  token r and vocabulary entry v, the same expression of the same embedding row: the row scaled by the inverse root of its
  mean square plus ε and by the gain, multiplied into the first weight matrix plus bias, the two halves gated as
  h · σ(h) · h', multiplied into the output weights plus bias — same factors, same order of summation. The programs differ
  only in the lookup: the kernel's replaces a row whose token id lies outside the table by not-a-number, the reference's
  clamps the id into the table. Under the precondition every id lies in [0, 32000), no row is replaced, and the two lookups
  are one gather. The kernel's arrays are read off its two regions' blocks (256 token rows at a time; then 2048 rows by 256
  vocabulary entries at a time), which tile their arrays.

  The three frames are the generated runs; the idealization rewrote nothing, so it preserves the kernel trivially.
-/
import proofs.«402073_j5025111736662_3_alg».proof.Defs
import proofs.«402073_j5025111736662_3_alg».proof.Proof.Gen.Kernel
import proofs.«402073_j5025111736662_3_alg».proof.Proof.Gen.Kernel.Skeleton
import proofs.«402073_j5025111736662_3_alg».proof.Proof.Gen.Kernel.Launch
import proofs.«402073_j5025111736662_3_alg».proof.Proof.Gen.Kernel.Points
import proofs.«402073_j5025111736662_3_alg».proof.Proof.Gen.Kernel.Frame
import proofs.«402073_j5025111736662_3_alg».proof.Proof.Gen.KernelIdeal
import proofs.«402073_j5025111736662_3_alg».proof.Proof.Gen.KernelIdeal.Skeleton
import proofs.«402073_j5025111736662_3_alg».proof.Proof.Gen.KernelIdeal.Launch
import proofs.«402073_j5025111736662_3_alg».proof.Proof.Gen.KernelIdeal.Points
import proofs.«402073_j5025111736662_3_alg».proof.Proof.Gen.KernelIdeal.Frame
import proofs.«402073_j5025111736662_3_alg».proof.Proof.Gen.ReferenceIdeal
import proofs.«402073_j5025111736662_3_alg».proof.Proof.Gen.ReferenceIdeal.Run
import proofs.«402073_j5025111736662_3_alg».proof.Proof.Gen.ReferenceIdeal.Read
import proofs.«402073_j5025111736662_3_alg».proof.Proof.Gen.Pre_finite_inputs
import proofs.«402073_j5025111736662_3_alg».proof.Proof.Bridge
import Idealize.ShloMosaic.Adequacy
import Idealize.ShloMosaic.Init

noncomputable section

namespace Cert.Proof

open Idealize.ShloMosaic Idealize.SL.Sem

/-- The word-level kernel program runs and keeps its arguments: its generated frame. -/
theorem frame_kernel : Cert.frame_Kernel := fun m ρ _ => Cert.Kernel.Gen.frame m ρ

/-- The idealized kernel program runs and keeps its arguments: its generated frame. -/
theorem frame_kernelIdeal : Cert.frame_KernelIdeal := fun m ρ _ => Cert.KernelIdeal.Gen.frame m ρ

/-- The reference runs and keeps its arguments: its generated run, the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on the arguments, with every token id in [0, 32000), both programs end with the logits of
    the arguments. -/
theorem algebraic : Cert.algebraic_KernelIdeal_ReferenceIdeal := by
  intro m ρ m' ρ' hpre hagree
  have hids := fun (c : Dev Cert.KernelIdeal.nD) => Cert.GatedMlp.Pre.ids_in_range (F := Ideal) _ _ _ _ _ _ _ (hpre c)
  refine ⟨fun c => Cert.GatedMlp.Bridge.logitsOf
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6)), ?_, ?_⟩
  · exact (θ_run Cert.KernelIdeal.defs _ _).mono
      (fun _ h c => ⟨(h c).1.trans (Cert.GatedMlp.Bridge.kernel_value m ρ c (hids c)), (h c).2⟩)
      (Cert.KernelIdeal.GenV.run_result (F := Ideal) m ρ)
  · refine (θ_run Cert.ReferenceIdeal.defs _ _).mono (fun _ h c => ⟨(h c).1.trans ?_, (h c).2⟩)
      (Cert.ReferenceIdeal.Value.run (F := Ideal) m' ρ')
    obtain ⟨e0, e1, e2, e3, e4, e5, e6⟩ := hagree c
    rw [Cert.GatedMlp.Bridge.ref_value m' c, e0, e1, e2, e3, e4, e5, e6]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
